-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v60)) (v1 : (c : Dev Cert.KernelIdeal.nD) → Buf (Elt Ideal) ((c.tc : Thread Cert.KernelIdeal.nD Cert.KernelIdeal.τ).loc Cert.KernelIdeal.main_v40_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_v40_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S100000x512 : Shape := ⟨2, ![100000, 512]⟩
abbrev S100000x2 : Shape := ⟨2, ![100000, 2]⟩
abbrev S1536x1024 : Shape := ⟨2, ![1536, 1024]⟩
abbrev S1024 : Shape := ⟨1, ![1024]⟩
abbrev S1024x512 : Shape := ⟨2, ![1024, 512]⟩
abbrev S512 : Shape := ⟨1, ![512]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S100000x512 : S_.BroadcastsInDim S100000x512 (![] : Fin 0 → Fin S100000x512.rank)
  reducesTo_S100000x512_S_d0_1 : S100000x512.ReducesTo [0, 1] S_
  bcast_S_S1536x1024 : S_.BroadcastsInDim S1536x1024 (![] : Fin 0 → Fin S1536x1024.rank)
  reducesTo_S1536x1024_S_d0_1 : S1536x1024.ReducesTo [0, 1] S_
  bcast_S_S1024 : S_.BroadcastsInDim S1024 (![] : Fin 0 → Fin S1024.rank)
  reducesTo_S1024_S_d0 : S1024.ReducesTo [0] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S1024 .f32) (main_arg13 : FVec F S1024x512 .f32) (main_arg14 : FVec F S512 .f32) (main_v48 : IVec S_ 1) (main_v49 : FVec F S1536x1024 .f32) (main_v50 : FVec F S1536x1024 .f32) : IVec S_ 1 :=
  let main_v51 : IVec S1536x1024 1 := cmpf .olt main_v49 main_v50
  let main_c_19 : IVec S_ 1 := constantI S_ 1 1#1
  let main_v52 : IVec S_ 1 := (fun x v => Host.reduce IntOp.andi x v reducesTo_S1536x1024_S_d0_1 h_S_) main_v51 main_c_19
  let main_v53 : IVec S_ 1 := andi main_v48 main_v52
  let main_v54 : FVec F S1024 .f32 := Host.absf main_arg12
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024x512 .f32 := Host.absf main_arg13
  let main_cst_22 : FVec F S_ .f32 := constant S_ .f32 0x7F800000#32
  let main_v60 : FVec F S1024x512 .f32 := broadcastInDim S1024x512 ![] bcast_S_S1024x512 main_cst_22
  let main_v61 : IVec S1024x512 1 := cmpf .olt main_v59 main_v60
  let main_c_23 : IVec S_ 1 := constantI S_ 1 1#1
  let main_v62 : IVec S_ 1 := (fun x v => Host.reduce IntOp.andi x v reducesTo_S1024x512_S_d0_1 h_S_) main_v61 main_c_23
  let main_v63 : IVec S_ 1 := andi main_v58 main_v62
  let main_v64 : FVec F S512 .f32 := Host.absf main_arg14
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_v63 main_v67

def fn_part2 {F : FTy → Type} [FloatOps F] (main_arg8 : FVec F S1024 .f32) (main_arg9 : FVec F S1024x512 .f32) (main_arg10 : FVec F S512 .f32) (main_arg11 : FVec F S1536x1024 .f32) (main_arg12 : FVec F S1024 .f32) (main_arg13 : FVec F S1024x512 .f32) (main_arg14 : FVec F S512 .f32) (main_v33 : IVec S_ 1) : IVec S_ 1 :=
  let main_v34 : FVec F S1024 .f32 := Host.absf main_arg8
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x512 .f32 := Host.absf main_arg9
  let main_cst_14 : FVec F S_ .f32 := constant S_ .f32 0x7F800000#32
  let main_v40 : FVec F S1024x512 .f32 := broadcastInDim S1024x512 ![] bcast_S_S1024x512 main_cst_14
  let main_v41 : IVec S1024x512 1 := cmpf .olt main_v39 main_v40
  let main_c_15 : IVec S_ 1 := constantI S_ 1 1#1
  let main_v42 : IVec S_ 1 := (fun x v => Host.reduce IntOp.andi x v reducesTo_S1024x512_S_d0_1 h_S_) main_v41 main_c_15
  let main_v43 : IVec S_ 1 := andi main_v38 main_v42
  let main_v44 : FVec F S512 .f32 := Host.absf main_arg10
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S1536x1024 .f32 := Host.absf main_arg11
  let main_cst_18 : FVec F S_ .f32 := constant S_ .f32 0x7F800000#32
  let main_v50 : FVec F S1536x1024 .f32 := broadcastInDim S1536x1024 ![] bcast_S_S1536x1024 main_cst_18
  fn_part3 (F := F) main_arg12 main_arg13 main_arg14 main_v48 main_v49 main_v50

def fn_part1 {F : FTy → Type} [FloatOps F] (main_arg5 : FVec F S1024x512 .f32) (main_arg6 : FVec F S512 .f32) (main_arg7 : FVec F S1536x1024 .f32) (main_arg8 : FVec F S1024 .f32) (main_arg9 : FVec F S1024x512 .f32) (main_arg10 : FVec F S512 .f32) (main_arg11 : FVec F S1536x1024 .f32) (main_arg12 : FVec F S1024 .f32) (main_arg13 : FVec F S1024x512 .f32) (main_arg14 : FVec F S512 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x512 .f32 := Host.absf main_arg5
  let main_cst_6 : FVec F S_ .f32 := constant S_ .f32 0x7F800000#32
  let main_v20 : FVec F S1024x512 .f32 := broadcastInDim S1024x512 ![] bcast_S_S1024x512 main_cst_6
  let main_v21 : IVec S1024x512 1 := cmpf .olt main_v19 main_v20
  let main_c_7 : IVec S_ 1 := constantI S_ 1 1#1
  let main_v22 : IVec S_ 1 := (fun x v => Host.reduce IntOp.andi x v reducesTo_S1024x512_S_d0_1 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S1536x1024 .f32 := Host.absf main_arg7
  let main_cst_10 : FVec F S_ .f32 := constant S_ .f32 0x7F800000#32
  let main_v30 : FVec F S1536x1024 .f32 := broadcastInDim S1536x1024 ![] bcast_S_S1536x1024 main_cst_10
  let main_v31 : IVec S1536x1024 1 := cmpf .olt main_v29 main_v30
  let main_c_11 : IVec S_ 1 := constantI S_ 1 1#1
  let main_v32 : IVec S_ 1 := (fun x v => Host.reduce IntOp.andi x v reducesTo_S1536x1024_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S50000x512 .f32) (main_arg1 : FVec F S100000x512 .f32) (main_arg2 : IVec S100000x2 32) (main_arg3 : FVec F S1536x1024 .f32) (main_arg4 : FVec F S1024 .f32) (main_arg5 : FVec F S1024x512 .f32) (main_arg6 : FVec F S512 .f32) (main_arg7 : FVec F S1536x1024 .f32) (main_arg8 : FVec F S1024 .f32) (main_arg9 : FVec F S1024x512 .f32) (main_arg10 : FVec F S512 .f32) (main_arg11 : FVec F S1536x1024 .f32) (main_arg12 : FVec F S1024 .f32) (main_arg13 : FVec F S1024x512 .f32) (main_arg14 : FVec F S512 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S100000x512 .f32 := Host.absf main_arg1
  let main_cst_0 : FVec F S_ .f32 := constant S_ .f32 0x7F800000#32
  let main_v5 : FVec F S100000x512 .f32 := broadcastInDim S100000x512 ![] bcast_S_S100000x512 main_cst_0
  let main_v6 : IVec S100000x512 1 := cmpf .olt main_v4 main_v5
  let main_c_1 : IVec S_ 1 := constantI S_ 1 1#1
  let main_v7 : IVec S_ 1 := (fun x v => Host.reduce IntOp.andi x v reducesTo_S100000x512_S_d0_1 h_S_) main_v6 main_c_1
  let main_v8 : IVec S_ 1 := andi main_v3 main_v7
  let main_v9 : FVec F S1536x1024 .f32 := Host.absf main_arg3
  let main_cst_2 : FVec F S_ .f32 := constant S_ .f32 0x7F800000#32
  let main_v10 : FVec F S1536x1024 .f32 := broadcastInDim S1536x1024 ![] bcast_S_S1536x1024 main_cst_2
  let main_v11 : IVec S1536x1024 1 := cmpf .olt main_v9 main_v10
  let main_c_3 : IVec S_ 1 := constantI S_ 1 1#1
  let main_v12 : IVec S_ 1 := (fun x v => Host.reduce IntOp.andi x v reducesTo_S1536x1024_S_d0_1 h_S_) main_v11 main_c_3
  let main_v13 : IVec S_ 1 := andi main_v8 main_v12
  let main_v14 : FVec F S1024 .f32 := Host.absf main_arg4
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg5 main_arg6 main_arg7 main_arg8 main_arg9 main_arg10 main_arg11 main_arg12 main_arg13 main_arg14 main_v13 main_v16
-- ==== Kernel.lean ====
abbrev S50000x512 : Shape := ⟨2, ![50000, 512]⟩
abbrev S100000x512 : Shape := ⟨2, ![100000, 512]⟩
abbrev S100000x2 : Shape := ⟨2, ![100000, 2]⟩
abbrev S1536x1024 : Shape := ⟨2, ![1536, 1024]⟩
abbrev S1024 : Shape := ⟨1, ![1024]⟩
abbrev S1024x512 : Shape := ⟨2, ![1024, 512]⟩
abbrev S512 : Shape := ⟨1, ![512]⟩
abbrev S100000x1 : Shape := ⟨2, ![100000, 1]⟩
abbrev S100000 : Shape := ⟨1, ![100000]⟩
abbrev S_ : Shape := ⟨0, ![]⟩
abbrev S512x1024 : Shape := ⟨2, ![512, 1024]⟩
abbrev S1x1024 : Shape := ⟨2, ![1, 1024]⟩
abbrev S1x512 : Shape := ⟨2, ![1, 512]⟩
abbrev S800x512 : Shape := ⟨2, ![800, 512]⟩
abbrev S800x1024 : Shape := ⟨2, ![800, 1024]⟩
abbrev S50000 : Shape := ⟨1, ![50000]⟩
abbrev S50000x1 : Shape := ⟨2, ![50000, 1]⟩

abbrev nBuf : Space → Nat
  | .hbm => 86
  | .vmem => 25
  | .smem => 0
  | _ => 0

abbrev bufTy : (tb : Table) → Fin (tcTables nBuf tb) → BufTy
  | .hbm, ⟨0, _⟩ => ⟨S50000x512, .f32⟩
  | .hbm, ⟨1, _⟩ => ⟨S100000x512, .f32⟩
  | .hbm, ⟨2, _⟩ => ⟨S100000x2, .i32⟩
  | .hbm, ⟨3, _⟩ => ⟨S1536x1024, .f32⟩
  | .hbm, ⟨4, _⟩ => ⟨S1024, .f32⟩
  | .hbm, ⟨5, _⟩ => ⟨S1024x512, .f32⟩
  | .hbm, ⟨6, _⟩ => ⟨S512, .f32⟩
  | .hbm, ⟨7, _⟩ => ⟨S1536x1024, .f32⟩
  | .hbm, ⟨8, _⟩ => ⟨S1024, .f32⟩
  | .hbm, ⟨9, _⟩ => ⟨S1024x512, .f32⟩
  | .hbm, ⟨10, _⟩ => ⟨S512, .f32⟩
  | .hbm, ⟨11, _⟩ => ⟨S1536x1024, .f32⟩
  | .hbm, ⟨12, _⟩ => ⟨S1024, .f32⟩
  | .hbm, ⟨13, _⟩ => ⟨S1024x512, .f32⟩
  | .hbm, ⟨14, _⟩ => ⟨S512, .f32⟩
  | .hbm, ⟨15, _⟩ => ⟨S100000x1, .i32⟩
  | .hbm, ⟨16, _⟩ => ⟨S100000, .i32⟩
  | .hbm, ⟨17, _⟩ => ⟨S100000x1, .i32⟩
  | .hbm, ⟨18, _⟩ => ⟨S100000, .i32⟩
  | .hbm, ⟨19, _⟩ => ⟨S50000x512, .bf16⟩
  | .hbm, ⟨20, _⟩ => ⟨S100000x512, .bf16⟩
  | .hbm, ⟨21, _⟩ => ⟨S_, .i32⟩
  | .hbm, ⟨22, _⟩ => ⟨S100000, .i32⟩
  | .hbm, ⟨23, _⟩ => ⟨S100000, .i1⟩
  | .hbm, ⟨24, _⟩ => ⟨S_, .i32⟩
  | .hbm, ⟨25, _⟩ => ⟨S100000, .i32⟩
  | .hbm, ⟨26, _⟩ => ⟨S100000, .i32⟩
  | .hbm, ⟨27, _⟩ => ⟨S100000, .i32⟩
  | .hbm, ⟨28, _⟩ => ⟨S100000x1, .i32⟩
  | .hbm, ⟨29, _⟩ => ⟨S100000x512, .bf16⟩
  | .hbm, ⟨30, _⟩ => ⟨S512x1024, .f32⟩
  | .hbm, ⟨31, _⟩ => ⟨S512x1024, .f32⟩
  | .hbm, ⟨32, _⟩ => ⟨S512x1024, .f32⟩
  | .hbm, ⟨33, _⟩ => ⟨S512x1024, .bf16⟩
  | .hbm, ⟨34, _⟩ => ⟨S512x1024, .f32⟩
  | .hbm, ⟨35, _⟩ => ⟨S512x1024, .bf16⟩
  | .hbm, ⟨36, _⟩ => ⟨S1024x512, .bf16⟩
  | .hbm, ⟨37, _⟩ => ⟨S1x1024, .f32⟩
  | .hbm, ⟨38, _⟩ => ⟨S1x512, .f32⟩
  | .hbm, ⟨39, _⟩ => ⟨S512x1024, .f32⟩
  | .hbm, ⟨40, _⟩ => ⟨S512x1024, .f32⟩
  | .hbm, ⟨41, _⟩ => ⟨S512x1024, .f32⟩
  | .hbm, ⟨42, _⟩ => ⟨S512x1024, .bf16⟩
  | .hbm, ⟨43, _⟩ => ⟨S512x1024, .f32⟩
  | .hbm, ⟨44, _⟩ => ⟨S512x1024, .bf16⟩
  | .hbm, ⟨45, _⟩ => ⟨S1024x512, .bf16⟩
  | .hbm, ⟨46, _⟩ => ⟨S1x1024, .f32⟩
  | .hbm, ⟨47, _⟩ => ⟨S1x512, .f32⟩
  | .hbm, ⟨48, _⟩ => ⟨S512x1024, .f32⟩
  | .hbm, ⟨49, _⟩ => ⟨S512x1024, .f32⟩
  | .hbm, ⟨50, _⟩ => ⟨S512x1024, .f32⟩
  | .hbm, ⟨51, _⟩ => ⟨S512x1024, .bf16⟩
  | .hbm, ⟨52, _⟩ => ⟨S512x1024, .f32⟩
  | .hbm, ⟨53, _⟩ => ⟨S512x1024, .bf16⟩
  | .hbm, ⟨54, _⟩ => ⟨S1024x512, .bf16⟩
  | .hbm, ⟨55, _⟩ => ⟨S1x1024, .f32⟩
  | .hbm, ⟨56, _⟩ => ⟨S1x512, .f32⟩
  | .hbm, ⟨57, _⟩ => ⟨S100000x512, .f32⟩
  | .hbm, ⟨58, _⟩ => ⟨S100000x512, .f32⟩
  | .hbm, ⟨59, _⟩ => ⟨S100000x512, .f32⟩
  | .hbm, ⟨60, _⟩ => ⟨S_, .f32⟩
  | .hbm, ⟨61, _⟩ => ⟨S50000x512, .f32⟩
  | .hbm, ⟨62, _⟩ => ⟨S100000x1, .i32⟩
  | .hbm, ⟨63, _⟩ => ⟨S50000x512, .f32⟩
  | .hbm, ⟨64, _⟩ => ⟨S_, .f32⟩
  | .hbm, ⟨65, _⟩ => ⟨S50000x512, .f32⟩
  | .hbm, ⟨66, _⟩ => ⟨S100000x1, .i32⟩
  | .hbm, ⟨67, _⟩ => ⟨S50000x512, .f32⟩
  | .hbm, ⟨68, _⟩ => ⟨S50000x512, .f32⟩
  | .hbm, ⟨69, _⟩ => ⟨S_, .f32⟩
  | .hbm, ⟨70, _⟩ => ⟨S100000, .f32⟩
  | .hbm, ⟨71, _⟩ => ⟨S_, .f32⟩
  | .hbm, ⟨72, _⟩ => ⟨S50000, .f32⟩
  | .hbm, ⟨73, _⟩ => ⟨S100000x1, .i32⟩
  | .hbm, ⟨74, _⟩ => ⟨S50000, .f32⟩
  | .hbm, ⟨75, _⟩ => ⟨S_, .f32⟩
  | .hbm, ⟨76, _⟩ => ⟨S50000, .f32⟩
  | .hbm, ⟨77, _⟩ => ⟨S100000x1, .i32⟩
  | .hbm, ⟨78, _⟩ => ⟨S50000, .f32⟩
  | .hbm, ⟨79, _⟩ => ⟨S50000, .f32⟩
  | .hbm, ⟨80, _⟩ => ⟨S_, .f32⟩
  | .hbm, ⟨81, _⟩ => ⟨S50000, .f32⟩
  | .hbm, ⟨82, _⟩ => ⟨S50000, .f32⟩
  | .hbm, ⟨83, _⟩ => ⟨S50000x1, .f32⟩
  | .hbm, ⟨84, _⟩ => ⟨S50000x512, .f32⟩
  | .hbm, ⟨85, _⟩ => ⟨S50000x512, .f32⟩
  | .local _ .vmem, ⟨0, _⟩ => ⟨S800x512, .bf16⟩
  | .local _ .vmem, ⟨1, _⟩ => ⟨S800x512, .bf16⟩
  | .local _ .vmem, ⟨2, _⟩ => ⟨S800x512, .bf16⟩
  | .local _ .vmem, ⟨3, _⟩ => ⟨S800x512, .bf16⟩
  | .local _ .vmem, ⟨4, _⟩ => ⟨S512x1024, .bf16⟩
  | .local _ .vmem, ⟨5, _⟩ => ⟨S512x1024, .bf16⟩
  | .local _ .vmem, ⟨6, _⟩ => ⟨S1x1024, .f32⟩
  | .local _ .vmem, ⟨7, _⟩ => ⟨S1024x512, .bf16⟩
  | .local _ .vmem, ⟨8, _⟩ => ⟨S1x512, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | .local _ .vmem, ⟨12, _⟩ => ⟨S1024x512, .bf16⟩
  | .local _ .vmem, ⟨13, _⟩ => ⟨S1x512, .f32⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | .local _ .vmem, ⟨17, _⟩ => ⟨S1024x512, .bf16⟩
  | .local _ .vmem, ⟨18, _⟩ => ⟨S1x512, .f32⟩
  | .local _ .vmem, ⟨19, _⟩ => ⟨S800x512, .f32⟩
  | .local _ .vmem, ⟨20, _⟩ => ⟨S800x512, .f32⟩
  | .local _ .vmem, ⟨21, _⟩ => ⟨S800x512, .f32⟩
  | .local _ .vmem, ⟨22, _⟩ => ⟨S800x512, .f32⟩
  | .local _ .vmem, ⟨23, _⟩ => ⟨S800x512, .f32⟩
  | .local _ .vmem, ⟨24, _⟩ => ⟨S800x512, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_c : Ref sig .tc := ⟨.hbm, 21, rfl⟩
abbrev main_v6 : Ref sig .tc := ⟨.hbm, 22, rfl⟩
abbrev main_v7 : Ref sig .tc := ⟨.hbm, 23, rfl⟩
abbrev main_c_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40_0 : Ref sig .tc := ⟨.hbm, 57, rfl⟩
abbrev main_v40_1 : Ref sig .tc := ⟨.hbm, 58, rfl⟩
abbrev main_v40_2 : Ref sig .tc := ⟨.hbm, 59, rfl⟩
abbrev main_cst : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_1 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_2 : Ref sig .tc := ⟨.hbm, 69, rfl⟩
abbrev main_v48 : Ref sig .tc := ⟨.hbm, 70, rfl⟩
abbrev main_cst_3 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_4 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_5 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg17_1 : Ref sig .tc := ⟨.vmem, 20, rfl⟩
abbrev cc0_stg18_0 : Ref sig .tc := ⟨.vmem, 21, rfl⟩
abbrev cc0_stg18_1 : Ref sig .tc := ⟨.vmem, 22, rfl⟩
abbrev cc0_stg19_0 : Ref sig .tc := ⟨.vmem, 23, rfl⟩
abbrev cc0_stg19_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem17_1 : DmaSem sig := 20
abbrev cc0_sem18_0 : DmaSem sig := 21
abbrev cc0_sem18_1 : DmaSem sig := 22
abbrev cc0_sem19_0 : DmaSem sig := 23
abbrev cc0_sem19_1 : DmaSem sig := 24

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S800x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S800x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x512 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S800x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S800x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S800x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

class Facts₀ : Prop where
  slices_S100000x2_S100000x1_0_0 : S100000x2.Slices ![0, 0] S100000x1
  shapeCasts_S100000x1_S100000 : S100000x1.ShapeCasts S100000
  slices_S100000x2_S100000x1_0_1 : S100000x2.Slices ![0, 1] S100000x1
  bitsLt_bf16_f32 : FTy.bits .bf16 < FTy.bits .f32
  bcast_S_S100000 : S_.BroadcastsInDim S100000 (![] : Fin 0 → Fin S100000.rank)
  bcast_S100000_S100000x1_0 : S100000.BroadcastsInDim S100000x1 (![0] : Fin 1 → Fin S100000x1.rank)
  slices_S1536x1024_S512x1024_0_0 : S1536x1024.Slices ![0, 0] S512x1024
  slices_S1536x1024_S512x1024_1024_0 : S1536x1024.Slices ![1024, 0] S512x1024
  slices_S1536x1024_S512x1024_512_0 : S1536x1024.Slices ![512, 0] S512x1024
  shapeCasts_S1024_S1x1024 : S1024.ShapeCasts S1x1024
  shapeCasts_S512_S1x512 : S512.ShapeCasts S1x512
  inb_S800x512_S800x512_0_0 : ∀ a, (![0, 0] : Fin 2 → Nat) a + S800x512.size a ≤ S800x512.size a
  h_S800x512 : 0 < S800x512.numel
  shapeCasts_S800x512_S800x512 : S800x512.ShapeCasts S800x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S800x1024 : S1x1024.Broadcasts S800x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S800x512 : S1x512.Broadcasts S800x512
  bcast_S_S50000x512 : S_.BroadcastsInDim S50000x512 (![] : Fin 0 → Fin S50000x512.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x512_0_1 : S50000x1.BroadcastsInDim S50000x512 (![0, 1] : Fin 2 → Fin S50000x512.rank)
  gather_S50000x512_S100000x1_S100000x512_1_0_n_n_0_1_1512_wf : GatherDims.WF S50000x512 S100000x1 S100000x512 [1] [0] [] [0] [] 1 ![1, 512]
  dot_S800x512_S512x1024_S800x1024_1_0_0_1_n_n_wf : DotDims.WF S800x512 S512x1024 S800x1024 [1] [0] [0] [1] [] []
  dot_S800x1024_S1024x512_S800x512_1_0_0_1_n_n_wf : DotDims.WF S800x1024 S1024x512 S800x512 [1] [0] [0] [1] [] []
  scatter_S50000x512_S100000x1_S100000x512_1_0_0_1_wf : ScatterDims.WF S50000x512 S100000x1 S100000x512 [1] [0] [0] 1
  scatter_S50000_S100000x1_S100000_n_0_0_1_wf : ScatterDims.WF S50000 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S800x512.size a ≤ S100000x512.size a
  hwx0_0 : ∀ i : grid0.Coords, EltTy.bits .bf16 = 32 ∨ (Rect.block (s := S100000x512) S800x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S800x512.size a ≤ S100000x512.size a
  hwx0_1 : ∀ i : grid0.Coords, EltTy.bits .bf16 = 32 ∨ (Rect.block (s := S100000x512) S800x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x1024.size a
  hwx0_2 : ∀ i : grid0.Coords, EltTy.bits .bf16 = 32 ∨ (Rect.block (s := S512x1024) S512x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S512x1024.size a
  hwx0_3 : ∀ i : grid0.Coords, EltTy.bits .bf16 = 32 ∨ (Rect.block (s := S512x1024) S512x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S1024x512.size a
  hwx0_5 : ∀ i : grid0.Coords, EltTy.bits .bf16 = 32 ∨ (Rect.block (s := S1024x512) S1024x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S512x1024.size a
  hwx0_7 : ∀ i : grid0.Coords, EltTy.bits .bf16 = 32 ∨ (Rect.block (s := S512x1024) S512x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x1024.size a ≤ S512x1024.size a
  hwx0_8 : ∀ i : grid0.Coords, EltTy.bits .bf16 = 32 ∨ (Rect.block (s := S512x1024) S512x1024.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1024.size a ≤ S1x1024.size a
  hwx0_9 : ∀ i : grid0.Coords, EltTy.bits .f32 = 32 ∨ (Rect.block (s := S1x1024) S1x1024.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024x512.size a ≤ S1024x512.size a
  hwx0_10 : ∀ i : grid0.Coords, EltTy.bits .bf16 = 32 ∨ (Rect.block (s := S1024x512) S1024x512.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x512.size a ≤ S1x512.size a
  hwx0_11 : ∀ i : grid0.Coords, EltTy.bits .f32 = 32 ∨ (Rect.block (s := S1x512) S1x512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S512x1024.size a ≤ S512x1024.size a
  hwx0_12 : ∀ i : grid0.Coords, EltTy.bits .bf16 = 32 ∨ (Rect.block (s := S512x1024) S512x1024.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S512x1024.size a ≤ S512x1024.size a
  hwx0_13 : ∀ i : grid0.Coords, EltTy.bits .bf16 = 32 ∨ (Rect.block (s := S512x1024) S512x1024.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x1024.size a ≤ S1x1024.size a
  hwx0_14 : ∀ i : grid0.Coords, EltTy.bits .f32 = 32 ∨ (Rect.block (s := S1x1024) S1x1024.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1024x512.size a ≤ S1024x512.size a
  hwx0_15 : ∀ i : grid0.Coords, EltTy.bits .bf16 = 32 ∨ (Rect.block (s := S1024x512) S1024x512.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x512.size a ≤ S1x512.size a
  hwx0_16 : ∀ i : grid0.Coords, EltTy.bits .f32 = 32 ∨ (Rect.block (s := S1x512) S1x512.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S800x512.size a ≤ S100000x512.size a
  hwx0_17 : ∀ i : grid0.Coords, EltTy.bits .f32 = 32 ∨ (Rect.block (s := S100000x512) S800x512.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S800x512.size a ≤ S100000x512.size a
  hwx0_18 : ∀ i : grid0.Coords, EltTy.bits .f32 = 32 ∨ (Rect.block (s := S100000x512) S800x512.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S800x512.size a ≤ S100000x512.size a
  hwx0_19 : ∀ i : grid0.Coords, EltTy.bits .f32 = 32 ∨ (Rect.block (s := S100000x512) S800x512.size (cc0_transform_19 i) (hinb0_19 i)).WholeWords (EltTy.packing .f32)

variable [Facts₀]

def gather_S50000x512_S100000x1_S100000x512_1_0_n_n_0_1_1512 : GatherDims S50000x512 S100000x1 S100000x512 where
  offsetDims := [1]
  collapsedSliceDims := [0]
  operandBatchingDims := []
  startIndicesBatchingDims := []
  startIndexMap := [0]
  indexVectorDim := 1
  sliceSizes := ![1, 512]
  wf := gather_S50000x512_S100000x1_S100000x512_1_0_n_n_0_1_1512_wf
def dot_S800x512_S512x1024_S800x1024_1_0_0_1_n_n : DotDims S800x512 S512x1024 S800x1024 where
  lhsContracting := [1]
  rhsContracting := [0]
  lhsNonContracting := [0]
  rhsNonContracting := [1]
  lhsBatch := []
  rhsBatch := []
  wf := dot_S800x512_S512x1024_S800x1024_1_0_0_1_n_n_wf
def dot_S800x1024_S1024x512_S800x512_1_0_0_1_n_n : DotDims S800x1024 S1024x512 S800x512 where
  lhsContracting := [1]
  rhsContracting := [0]
  lhsNonContracting := [0]
  rhsNonContracting := [1]
  lhsBatch := []
  rhsBatch := []
  wf := dot_S800x1024_S1024x512_S800x512_1_0_0_1_n_n_wf
def scatter_S50000x512_S100000x1_S100000x512_1_0_0_1 : ScatterDims S50000x512 S100000x1 S100000x512 where
  updateWindowDims := [1]
  insertedWindowDims := [0]
  scatterDimsToOperandDims := [0]
  indexVectorDim := 1
  wf := scatter_S50000x512_S100000x1_S100000x512_1_0_0_1_wf
def scatter_S50000_S100000x1_S100000_n_0_0_1 : ScatterDims S50000 S100000x1 S100000 where
  updateWindowDims := []
  insertedWindowDims := [0]
  scatterDimsToOperandDims := [0]
  indexVectorDim := 1
  wf := scatter_S50000_S100000x1_S100000_n_0_0_1_wf

abbrev win0_0 : Pipeline.Window sig grid0 :=
  Pipeline.Window.ofSpec (Memref.whole main_v12) S800x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S800x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S512x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S512x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1024x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v25) S512x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v27) S512x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v29) S1x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v28) S1024x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v30) S1x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v34) S512x1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v36) S512x1024.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v38) S1x1024.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v37) S1024x512.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v39) S1x512.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v40_0) S800x512.size cc0_transform_17 reads0_17 true false 2 stage0_17 sem0_17
    hrank0 hreads0_17 hinb0_17 nbuf0_17 (Memref.isWhole_whole _) hwx0_17 hstage0_17

abbrev win0_18 : Pipeline.Window sig grid0 :=
  Pipeline.Window.ofSpec (Memref.whole main_v40_1) S800x512.size cc0_transform_18 reads0_18 true false 2 stage0_18 sem0_18
    hrank0 hreads0_18 hinb0_18 nbuf0_18 (Memref.isWhole_whole _) hwx0_18 hstage0_18

abbrev win0_19 : Pipeline.Window sig grid0 :=
  Pipeline.Window.ofSpec (Memref.whole main_v40_2) S800x512.size cc0_transform_19 reads0_19 true false 2 stage0_19 sem0_19
    hrank0 hreads0_19 hinb0_19 nbuf0_19 (Memref.isWhole_whole _) hwx0_19 hstage0_19

abbrev win0 : Fin 20 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | ⟨_ + 20, h⟩ => absurd h (Nat.not_lt.2 (Nat.le_add_left _ _))
abbrev spec0 : Fin 20 → Pipeline.WinSpec sig grid0.rank := fun w => (win0 w).toWinSpec

class Facts : Prop extends Facts₀ where

variable [Facts]
-- ==== ReferenceIdeal.lean ====
abbrev S50000x512 : Shape := ⟨2, ![50000, 512]⟩
abbrev S100000x512 : Shape := ⟨2, ![100000, 512]⟩
abbrev S100000x2 : Shape := ⟨2, ![100000, 2]⟩
abbrev S1536x1024 : Shape := ⟨2, ![1536, 1024]⟩
abbrev S1024 : Shape := ⟨1, ![1024]⟩
abbrev S1024x512 : Shape := ⟨2, ![1024, 512]⟩
abbrev S512 : Shape := ⟨1, ![512]⟩
abbrev S100000x1 : Shape := ⟨2, ![100000, 1]⟩
abbrev S100000 : Shape := ⟨1, ![100000]⟩
abbrev S_ : Shape := ⟨0, ![]⟩
abbrev S100000x1536 : Shape := ⟨2, ![100000, 1536]⟩
abbrev S100000x1024 : Shape := ⟨2, ![100000, 1024]⟩
abbrev S1x1024 : Shape := ⟨2, ![1, 1024]⟩
abbrev S1x512 : Shape := ⟨2, ![1, 512]⟩
abbrev S50000 : Shape := ⟨1, ![50000]⟩
abbrev S50000x1 : Shape := ⟨2, ![50000, 1]⟩

abbrev nBuf : Space → Nat
  | .hbm => 88
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S100000x512, .f32⟩
  | .hbm, ⟨2, _⟩ => ⟨S100000x2, .i32⟩
  | .hbm, ⟨3, _⟩ => ⟨S1536x1024, .f32⟩
  | .hbm, ⟨4, _⟩ => ⟨S1024, .f32⟩
  | .hbm, ⟨5, _⟩ => ⟨S1024x512, .f32⟩
  | .hbm, ⟨6, _⟩ => ⟨S512, .f32⟩
  | .hbm, ⟨7, _⟩ => ⟨S1536x1024, .f32⟩
  | .hbm, ⟨8, _⟩ => ⟨S1024, .f32⟩
  | .hbm, ⟨9, _⟩ => ⟨S1024x512, .f32⟩
  | .hbm, ⟨10, _⟩ => ⟨S512, .f32⟩
  | .hbm, ⟨11, _⟩ => ⟨S1536x1024, .f32⟩
  | .hbm, ⟨12, _⟩ => ⟨S1024, .f32⟩
  | .hbm, ⟨13, _⟩ => ⟨S1024x512, .f32⟩
  | .hbm, ⟨14, _⟩ => ⟨S512, .f32⟩
  | .hbm, ⟨15, _⟩ => ⟨S100000x1, .i32⟩
  | .hbm, ⟨16, _⟩ => ⟨S100000, .i32⟩
  | .hbm, ⟨17, _⟩ => ⟨S100000x1, .i32⟩
  | .hbm, ⟨18, _⟩ => ⟨S100000, .i32⟩
  | .hbm, ⟨19, _⟩ => ⟨S_, .i32⟩
  | .hbm, ⟨20, _⟩ => ⟨S100000, .i32⟩
  | .hbm, ⟨21, _⟩ => ⟨S100000, .i1⟩
  | .hbm, ⟨22, _⟩ => ⟨S_, .i32⟩
  | .hbm, ⟨23, _⟩ => ⟨S100000, .i32⟩
  | .hbm, ⟨24, _⟩ => ⟨S100000, .i32⟩
  | .hbm, ⟨25, _⟩ => ⟨S100000, .i32⟩
  | .hbm, ⟨26, _⟩ => ⟨S100000x1, .i32⟩
  | .hbm, ⟨27, _⟩ => ⟨S100000x512, .f32⟩
  | .hbm, ⟨28, _⟩ => ⟨S100000x1536, .f32⟩
  | .hbm, ⟨29, _⟩ => ⟨S100000x1024, .f32⟩
  | .hbm, ⟨30, _⟩ => ⟨S1x1024, .f32⟩
  | .hbm, ⟨31, _⟩ => ⟨S100000x1024, .f32⟩
  | .hbm, ⟨32, _⟩ => ⟨S100000x1024, .f32⟩
  | .hbm, ⟨33, _⟩ => ⟨S_, .f32⟩
  | .hbm, ⟨34, _⟩ => ⟨S100000x1024, .f32⟩
  | .hbm, ⟨35, _⟩ => ⟨S100000x1024, .f32⟩
  | .hbm, ⟨36, _⟩ => ⟨S100000x512, .f32⟩
  | .hbm, ⟨37, _⟩ => ⟨S1x512, .f32⟩
  | .hbm, ⟨38, _⟩ => ⟨S100000x512, .f32⟩
  | .hbm, ⟨39, _⟩ => ⟨S100000x512, .f32⟩
  | .hbm, ⟨40, _⟩ => ⟨S100000x1024, .f32⟩
  | .hbm, ⟨41, _⟩ => ⟨S1x1024, .f32⟩
  | .hbm, ⟨42, _⟩ => ⟨S100000x1024, .f32⟩
  | .hbm, ⟨43, _⟩ => ⟨S100000x1024, .f32⟩
  | .hbm, ⟨44, _⟩ => ⟨S_, .f32⟩
  | .hbm, ⟨45, _⟩ => ⟨S100000x1024, .f32⟩
  | .hbm, ⟨46, _⟩ => ⟨S100000x1024, .f32⟩
  | .hbm, ⟨47, _⟩ => ⟨S100000x512, .f32⟩
  | .hbm, ⟨48, _⟩ => ⟨S1x512, .f32⟩
  | .hbm, ⟨49, _⟩ => ⟨S100000x512, .f32⟩
  | .hbm, ⟨50, _⟩ => ⟨S100000x512, .f32⟩
  | .hbm, ⟨51, _⟩ => ⟨S100000x1024, .f32⟩
  | .hbm, ⟨52, _⟩ => ⟨S1x1024, .f32⟩
  | .hbm, ⟨53, _⟩ => ⟨S100000x1024, .f32⟩
  | .hbm, ⟨54, _⟩ => ⟨S100000x1024, .f32⟩
  | .hbm, ⟨55, _⟩ => ⟨S_, .f32⟩
  | .hbm, ⟨56, _⟩ => ⟨S100000x1024, .f32⟩
  | .hbm, ⟨57, _⟩ => ⟨S100000x1024, .f32⟩
  | .hbm, ⟨58, _⟩ => ⟨S100000x512, .f32⟩
  | .hbm, ⟨59, _⟩ => ⟨S1x512, .f32⟩
  | .hbm, ⟨60, _⟩ => ⟨S100000x512, .f32⟩
  | .hbm, ⟨61, _⟩ => ⟨S100000x512, .f32⟩
  | .hbm, ⟨62, _⟩ => ⟨S_, .f32⟩
  | .hbm, ⟨63, _⟩ => ⟨S50000x512, .f32⟩
  | .hbm, ⟨64, _⟩ => ⟨S100000x1, .i32⟩
  | .hbm, ⟨65, _⟩ => ⟨S50000x512, .f32⟩
  | .hbm, ⟨66, _⟩ => ⟨S_, .f32⟩
  | .hbm, ⟨67, _⟩ => ⟨S50000x512, .f32⟩
  | .hbm, ⟨68, _⟩ => ⟨S100000x1, .i32⟩
  | .hbm, ⟨69, _⟩ => ⟨S50000x512, .f32⟩
  | .hbm, ⟨70, _⟩ => ⟨S50000x512, .f32⟩
  | .hbm, ⟨71, _⟩ => ⟨S_, .f32⟩
  | .hbm, ⟨72, _⟩ => ⟨S100000, .f32⟩
  | .hbm, ⟨73, _⟩ => ⟨S_, .f32⟩
  | .hbm, ⟨74, _⟩ => ⟨S50000, .f32⟩
  | .hbm, ⟨75, _⟩ => ⟨S100000x1, .i32⟩
  | .hbm, ⟨76, _⟩ => ⟨S50000, .f32⟩
  | .hbm, ⟨77, _⟩ => ⟨S_, .f32⟩
  | .hbm, ⟨78, _⟩ => ⟨S50000, .f32⟩
  | .hbm, ⟨79, _⟩ => ⟨S100000x1, .i32⟩
  | .hbm, ⟨80, _⟩ => ⟨S50000, .f32⟩
  | .hbm, ⟨81, _⟩ => ⟨S50000, .f32⟩
  | .hbm, ⟨82, _⟩ => ⟨S_, .f32⟩
  | .hbm, ⟨83, _⟩ => ⟨S50000, .f32⟩
  | .hbm, ⟨84, _⟩ => ⟨S50000, .f32⟩
  | .hbm, ⟨85, _⟩ => ⟨S50000x1, .f32⟩
  | .hbm, ⟨86, _⟩ => ⟨S50000x512, .f32⟩
  | .hbm, ⟨87, _⟩ => ⟨S50000x512, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_1 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_2 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_3 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_4 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_5 : Ref sig .tc := ⟨.hbm, 71, rfl⟩
abbrev main_v49 : Ref sig .tc := ⟨.hbm, 72, rfl⟩
abbrev main_cst_6 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_7 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_8 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩

abbrev nD : Nat := 1
abbrev τ : Topo := Topo.v7x

variable {F : FTy → Type} [FloatOps F]

class Facts₀ : Prop where
  slices_S100000x2_S100000x1_0_0 : S100000x2.Slices ![0, 0] S100000x1
  shapeCasts_S100000x1_S100000 : S100000x1.ShapeCasts S100000
  slices_S100000x2_S100000x1_0_1 : S100000x2.Slices ![0, 1] S100000x1
  bcast_S_S100000 : S_.BroadcastsInDim S100000 (![] : Fin 0 → Fin S100000.rank)
  bcast_S100000_S100000x1_0 : S100000.BroadcastsInDim S100000x1 (![0] : Fin 1 → Fin S100000x1.rank)
  concatenates_S100000x512_S100000x512_S100000x512_S100000x1536_d1 : Shape.Concatenates [S100000x512, S100000x512, S100000x512] S100000x1536 1
  bcast_S1024_S1x1024_1 : S1024.BroadcastsInDim S1x1024 (![1] : Fin 1 → Fin S1x1024.rank)
  bcast_S1x1024_S100000x1024_0_1 : S1x1024.BroadcastsInDim S100000x1024 (![0, 1] : Fin 2 → Fin S100000x1024.rank)
  bcast_S_S100000x1024 : S_.BroadcastsInDim S100000x1024 (![] : Fin 0 → Fin S100000x1024.rank)
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  bcast_S_S50000x512 : S_.BroadcastsInDim S50000x512 (![] : Fin 0 → Fin S50000x512.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x512_0_1 : S50000x1.BroadcastsInDim S50000x512 (![0, 1] : Fin 2 → Fin S50000x512.rank)
  gather_S50000x512_S100000x1_S100000x512_1_0_n_n_0_1_1512_wf : GatherDims.WF S50000x512 S100000x1 S100000x512 [1] [0] [] [0] [] 1 ![1, 512]
  dot_S100000x1536_S1536x1024_S100000x1024_1_0_0_1_n_n_wf : DotDims.WF S100000x1536 S1536x1024 S100000x1024 [1] [0] [0] [1] [] []
  dot_S100000x1024_S1024x512_S100000x512_1_0_0_1_n_n_wf : DotDims.WF S100000x1024 S1024x512 S100000x512 [1] [0] [0] [1] [] []
  scatter_S50000x512_S100000x1_S100000x512_1_0_0_1_wf : ScatterDims.WF S50000x512 S100000x1 S100000x512 [1] [0] [0] 1
  scatter_S50000_S100000x1_S100000_n_0_0_1_wf : ScatterDims.WF S50000 S100000x1 S100000 [] [0] [0] 1

variable [Facts₀]

def gather_S50000x512_S100000x1_S100000x512_1_0_n_n_0_1_1512 : GatherDims S50000x512 S100000x1 S100000x512 where
  offsetDims := [1]
  collapsedSliceDims := [0]
  operandBatchingDims := []
  startIndicesBatchingDims := []
  startIndexMap := [0]
  indexVectorDim := 1
  sliceSizes := ![1, 512]
  wf := gather_S50000x512_S100000x1_S100000x512_1_0_n_n_0_1_1512_wf
def dot_S100000x1536_S1536x1024_S100000x1024_1_0_0_1_n_n : DotDims S100000x1536 S1536x1024 S100000x1024 where
  lhsContracting := [1]
  rhsContracting := [0]
  lhsNonContracting := [0]
  rhsNonContracting := [1]
  lhsBatch := []
  rhsBatch := []
  wf := dot_S100000x1536_S1536x1024_S100000x1024_1_0_0_1_n_n_wf
def dot_S100000x1024_S1024x512_S100000x512_1_0_0_1_n_n : DotDims S100000x1024 S1024x512 S100000x512 where
  lhsContracting := [1]
  rhsContracting := [0]
  lhsNonContracting := [0]
  rhsNonContracting := [1]
  lhsBatch := []
  rhsBatch := []
  wf := dot_S100000x1024_S1024x512_S100000x512_1_0_0_1_n_n_wf
def scatter_S50000x512_S100000x1_S100000x512_1_0_0_1 : ScatterDims S50000x512 S100000x1 S100000x512 where
  updateWindowDims := [1]
  insertedWindowDims := [0]
  scatterDimsToOperandDims := [0]
  indexVectorDim := 1
  wf := scatter_S50000x512_S100000x1_S100000x512_1_0_0_1_wf
def scatter_S50000_S100000x1_S100000_n_0_0_1 : ScatterDims S50000 S100000x1 S100000 where
  updateWindowDims := []
  insertedWindowDims := [0]
  scatterDimsToOperandDims := [0]
  indexVectorDim := 1
  wf := scatter_S50000_S100000x1_S100000_n_0_0_1_wf

class Facts : Prop extends Facts₀ where

variable [Facts]
-- ==== Proof.MlpSpec.lean ====
/-
  The mathematics of one edge network, index by index over the extended reals.

  For an edge `r` the input row is `[a | p | a]`: the gathered object row `a = A r`, the predicate row `p = P r`, and the
  object row once more. The first layer multiplies it by the stacked weight `W1` (rows 0..511, 512..1023, 1024..1535) and adds
  `b1`; the second layer takes the positive part, multiplies by `W2` and adds `b2`.

  Two spellings of the first layer are stated: the CONCATENATED one, a single sum over the 1536 stacked rows, and the SPLIT
  one, which adds the two weight blocks that meet the object row before multiplying: `a · (W1_lo + W1_hi) + p · W1_mid`.
  They agree when every entry is a real number: distributivity `x · (u + v) = x · u + x · v` fails on the extended reals at
  the infinities, so the hypothesis is needed.
-/
import Idealize.ShloMosaic.PureOps.Ideal
import Idealize.ShloMosaic.PureOps.Ideal.Laws
import Idealize.ShloMosaic.Lib.ValueIdx
import Mathlib.Algebra.BigOperators.Fin
import Mathlib.Data.EReal.Basic

noncomputable section

namespace Cert.EdgeMlp

open Idealize.ShloMosaic Idealize.ShloMosaic.ValueIdx

/-- A matrix of extended reals over literal extents. -/
abbrev Mat (a b : Nat) : Type := (⟨2, ![a, b]⟩ : Shape).Idx → EReal
/-- A vector of extended reals over a literal extent. -/
abbrev Vect (a : Nat) : Type := (⟨1, ![a]⟩ : Shape).Idx → EReal

/-- The f32 zero word read at the ideal values (it denotes `0`; both programs print this word, so it is never evaluated). -/
abbrev zeroWord : EReal := Ideal.ofBits .f32 0x00000000#32

/-- An extended real that is a real number. -/
def IsReal (x : EReal) : Prop := ∃ r : ℝ, x = (r : EReal)

/-- Row `k` of the first weight block, as a row of the stacked weight. -/
def lo (k : Fin 512) : Fin 1536 := ⟨k.val, by omega⟩
/-- Row `k` of the second weight block. -/
def mid (k : Fin 512) : Fin 1536 := ⟨512 + k.val, by omega⟩
/-- Row `k` of the third weight block. -/
def hi (k : Fin 512) : Fin 1536 := ⟨1024 + k.val, by omega⟩

/-- Entry `k` of the row `[a | p | a]` of edge `r`. -/
def cat3 (A P : Mat 100000 512) (r : Fin 100000) (k : Fin 1536) : EReal :=
  if h1 : k.val < 512 then A (ix2 r ⟨k.val, h1⟩)
  else if h2 : k.val < 1024 then P (ix2 r ⟨k.val - 512, by omega⟩)
  else A (ix2 r ⟨k.val - 1024, by omega⟩)

/-- The first layer before the positive part, as ONE sum over the stacked rows. -/
def hidCat (A P : Mat 100000 512) (W1 : Mat 1536 1024) (b1 : Vect 1024) (r : Fin 100000) (h : Fin 1024) : EReal :=
  (∑ k : Fin 1536, cat3 A P r k * W1 (ix2 k h)) + b1 (ix1 h)

/-- The first layer before the positive part, with the two weight blocks that meet the object row added first. -/
def hidSplit (A P : Mat 100000 512) (W1 : Mat 1536 1024) (b1 : Vect 1024) (r : Fin 100000) (h : Fin 1024) : EReal :=
  ((∑ k : Fin 512, A (ix2 r k) * (W1 (ix2 (lo k) h) + W1 (ix2 (hi k) h)))
    + ∑ k : Fin 512, P (ix2 r k) * W1 (ix2 (mid k) h)) + b1 (ix1 h)

/-- The second layer over a given first layer: positive part, product with `W2`, plus `b2`. -/
def outOf (hid : Fin 100000 → Fin 1024 → EReal) (W2 : Mat 1024 512) (b2 : Vect 512) : Mat 100000 512 :=
  fun i => (∑ h : Fin 1024, max (hid (i 0) h) zeroWord * W2 (ix2 h (i 1))) + b2 (ix1 (i 1))

theorem outOf_apply (hid : Fin 100000 → Fin 1024 → EReal) (W2 : Mat 1024 512) (b2 : Vect 512) (r : Fin 100000) (j : Fin 512) :
    outOf hid W2 b2 (ix2 r j) = (∑ h : Fin 1024, max (hid r h) zeroWord * W2 (ix2 h j)) + b2 (ix1 j) := rfl

/-- The network over the concatenated first layer. -/
def mlpCat (A P : Mat 100000 512) (W1 : Mat 1536 1024) (b1 : Vect 1024) (W2 : Mat 1024 512) (b2 : Vect 512) : Mat 100000 512 :=
  outOf (hidCat A P W1 b1) W2 b2

/-- The network over the split first layer. -/
def mlpSplit (A P : Mat 100000 512) (W1 : Mat 1536 1024) (b1 : Vect 1024) (W2 : Mat 1024 512) (b2 : Vect 512) : Mat 100000 512 :=
  outOf (hidSplit A P W1 b1) W2 b2

/-- The coercion of the reals into the extended reals commutes with finite sums. -/
private theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over the 1536 stacked rows is the sum of the sums over its three blocks of 512 rows. -/
private theorem sum_three (f : Fin 1536 → EReal) :
    ∑ k : Fin 1536, f k
      = ∑ k : Fin 512, f (lo k) + (∑ k : Fin 512, f (mid k) + ∑ k : Fin 512, f (hi k)) := by
  have h1 : ∑ k : Fin (512 + (512 + 512)), f k
      = ∑ k : Fin 512, f (Fin.castAdd (512 + 512) k) + ∑ k : Fin (512 + 512), f (Fin.natAdd 512 k) :=
    Fin.sum_univ_add (M := EReal) (a := 512) (b := 512 + 512) f
  have h2 : ∑ k : Fin (512 + 512), f (Fin.natAdd 512 k)
      = ∑ k : Fin 512, f (Fin.natAdd 512 (Fin.castAdd 512 k)) + ∑ k : Fin 512, f (Fin.natAdd 512 (Fin.natAdd 512 k)) :=
    Fin.sum_univ_add (M := EReal) (a := 512) (b := 512) fun k => f (Fin.natAdd 512 k)
  have e1 : ∀ k : Fin 512, (Fin.castAdd (512 + 512) k : Fin 1536) = lo k := fun k => Fin.ext rfl
  have e2 : ∀ k : Fin 512, (Fin.natAdd 512 (Fin.castAdd 512 k) : Fin 1536) = mid k := fun k => Fin.ext rfl
  have e3 : ∀ k : Fin 512, (Fin.natAdd 512 (Fin.natAdd 512 k) : Fin 1536) = hi k :=
    fun k => Fin.ext (by show 512 + (512 + k.val) = 1024 + k.val; omega)
  refine h1.trans ?_
  rw [h2]
  simp only [e1, e2, e3]

/-- The two first layers agree on real entries. -/
theorem hidSplit_eq_hidCat (A P : Mat 100000 512) (W1 : Mat 1536 1024) (b1 : Vect 1024)
    (hA : ∀ i, IsReal (A i)) (hP : ∀ i, IsReal (P i)) (hW : ∀ i, IsReal (W1 i)) (r : Fin 100000) (h : Fin 1024) :
    hidSplit A P W1 b1 r h = hidCat A P W1 b1 r h := by
  unfold hidSplit hidCat
  congr 1
  rw [sum_three]
  -- on each block the row [a | p | a] reads a, p, a
  have c1 : ∀ k : Fin 512, cat3 A P r (lo k) = A (ix2 r k) := by
    intro k
    have hk : (lo k).val < 512 := k.isLt
    unfold cat3
    rw [dif_pos hk]
    rfl
  have c2 : ∀ k : Fin 512, cat3 A P r (mid k) = P (ix2 r k) := by
    intro k
    have hv : (mid k).val = 512 + k.val := rfl
    have hk1 : ¬ (mid k).val < 512 := by omega
    have hk2 : (mid k).val < 1024 := by omega
    unfold cat3
    rw [dif_neg hk1, dif_pos hk2]
    exact congrArg (fun j => P (ix2 r j)) (Fin.ext (by show (mid k).val - 512 = k.val; omega))
  have c3 : ∀ k : Fin 512, cat3 A P r (hi k) = A (ix2 r k) := by
    intro k
    have hv : (hi k).val = 1024 + k.val := rfl
    have hk1 : ¬ (hi k).val < 512 := by omega
    have hk2 : ¬ (hi k).val < 1024 := by omega
    unfold cat3
    rw [dif_neg hk1, dif_neg hk2]
    exact congrArg (fun j => A (ix2 r j)) (Fin.ext (by show (hi k).val - 1024 = k.val; omega))
  simp only [c1, c2, c3]
  -- every entry is a real number: name the real matrices
  choose a ha using hA
  choose p hp using hP
  choose w hw using hW
  simp only [ha, hp, hw, ← EReal.coe_add, ← EReal.coe_mul, ← coe_sum]
  refine congrArg Real.toEReal ?_
  simp only [mul_add, Finset.sum_add_distrib]
  abel

/-- So the two networks agree on real entries. -/
theorem mlpSplit_eq_mlpCat (A P : Mat 100000 512) (W1 : Mat 1536 1024) (b1 : Vect 1024) (W2 : Mat 1024 512) (b2 : Vect 512)
    (hA : ∀ i, IsReal (A i)) (hP : ∀ i, IsReal (P i)) (hW : ∀ i, IsReal (W1 i)) :
    mlpSplit A P W1 b1 W2 b2 = mlpCat A P W1 b1 W2 b2 := by
  unfold mlpSplit mlpCat
  congr 1
  funext r h
  exact hidSplit_eq_hidCat A P W1 b1 hA hP hW r h

end Cert.EdgeMlp

end
-- ==== Proof.KerHead.lean ====
/-
  The arrays the call reads, as the region finds them, in terms of the launch arguments.

  Before the call the host gathers the object rows (after a change of float format, the identity at the ideal values),
  converts the predicate rows, and per weight set: adds the first and third 512-row blocks of the stacked first-layer weight,
  takes the middle block, reshapes the two biases to one-row matrices and converts the second-layer weight. Read at an
  entry: the summed block at (k, h) is W1[k, h] + W1[1024 + k, h]; the middle block is W1[512 + k, h]; a reshaped bias at
  (0, h) is b[h]. The gathered rows are the reference's own gather of the same arguments and stay opaque.
-/
import proofs.«160993_j55645596287598_1_alg».proof.Proof.Gen.KernelIdeal.Frame
import proofs.«160993_j55645596287598_1_alg».proof.Proof.Gen.ReferenceIdeal.Read
import proofs.«160993_j55645596287598_1_alg».proof.Proof.MlpSpec
import Idealize.ShloMosaic.Lib.StableHlo.Run
import Idealize.ShloMosaic.Lib.ValueIdx
import Idealize.ShloMosaic.Lib.Pipeline.Value

noncomputable section

namespace Cert.KernelIdeal.Head

open Idealize.ShloMosaic Idealize.ShloMosaic.TcCoe Idealize.SL.Sem Idealize.ShloMosaic.StableHlo Idealize.ShloMosaic.ValueIdx
open Cert.KernelIdeal Cert.KernelIdeal.Gen Cert.EdgeMlp

variable (m : (ℓ : Loc nD τ sig) → Buf (Elt Ideal) ℓ)

/-! ## The launch arguments and the call's input arrays, each at its literal type -/

/-- The gathered object rows: the reference's gather of the object vectors at the edges' second endpoints. -/
abbrev rows (c : Dev nD) : Mat 100000 512 :=
  Cert.ReferenceIdeal.Read.val_main_v10 (F := Ideal) (m ((c : Thread nD τ).loc main_arg0)) (m ((c : Thread nD τ).loc main_arg2))
/-- The predicate vectors. -/
abbrev pred (c : Dev nD) : Mat 100000 512 := m ((c : Thread nD τ).loc main_arg1)
/-- The first weight set. -/
abbrev w1a (c : Dev nD) : Mat 1536 1024 := m ((c : Thread nD τ).loc main_arg3)
abbrev b1a (c : Dev nD) : Vect 1024 := m ((c : Thread nD τ).loc main_arg4)
abbrev w2a (c : Dev nD) : Mat 1024 512 := m ((c : Thread nD τ).loc main_arg5)
abbrev b2a (c : Dev nD) : Vect 512 := m ((c : Thread nD τ).loc main_arg6)
/-- The second weight set. -/
abbrev w1b (c : Dev nD) : Mat 1536 1024 := m ((c : Thread nD τ).loc main_arg7)
abbrev b1b (c : Dev nD) : Vect 1024 := m ((c : Thread nD τ).loc main_arg8)
abbrev w2b (c : Dev nD) : Mat 1024 512 := m ((c : Thread nD τ).loc main_arg9)
abbrev b2b (c : Dev nD) : Vect 512 := m ((c : Thread nD τ).loc main_arg10)
/-- The third weight set. -/
abbrev w1c (c : Dev nD) : Mat 1536 1024 := m ((c : Thread nD τ).loc main_arg11)
abbrev b1c (c : Dev nD) : Vect 1024 := m ((c : Thread nD τ).loc main_arg12)
abbrev w2c (c : Dev nD) : Mat 1024 512 := m ((c : Thread nD τ).loc main_arg13)
abbrev b2c (c : Dev nD) : Vect 512 := m ((c : Thread nD τ).loc main_arg14)

/-- The call's operands 0 and 1: gathered rows and predicate rows. -/
abbrev inRows (c : Dev nD) : Mat 100000 512 := V m c main_v12
abbrev inPred (c : Dev nD) : Mat 100000 512 := V m c main_v5
/-- The call's operands 2 to 6: the first weight set as the body loads it. -/
abbrev inWooA (c : Dev nD) : Mat 512 1024 := V m c main_v16
abbrev inWpA (c : Dev nD) : Mat 512 1024 := V m c main_v18
abbrev inB1A (c : Dev nD) : Mat 1 1024 := V m c main_v20
abbrev inW2A (c : Dev nD) : Mat 1024 512 := V m c main_v19
abbrev inB2A (c : Dev nD) : Mat 1 512 := V m c main_v21
/-- The call's operands 7 to 11: the second weight set. -/
abbrev inWooB (c : Dev nD) : Mat 512 1024 := V m c main_v25
abbrev inWpB (c : Dev nD) : Mat 512 1024 := V m c main_v27
abbrev inB1B (c : Dev nD) : Mat 1 1024 := V m c main_v29
abbrev inW2B (c : Dev nD) : Mat 1024 512 := V m c main_v28
abbrev inB2B (c : Dev nD) : Mat 1 512 := V m c main_v30
/-- The call's operands 12 to 16: the third weight set. -/
abbrev inWooC (c : Dev nD) : Mat 512 1024 := V m c main_v34
abbrev inWpC (c : Dev nD) : Mat 512 1024 := V m c main_v36
abbrev inB1C (c : Dev nD) : Mat 1 1024 := V m c main_v38
abbrev inW2C (c : Dev nD) : Mat 1024 512 := V m c main_v37
abbrev inB2C (c : Dev nD) : Mat 1 512 := V m c main_v39

/-! ## Slices and reshapes at an entry -/

/-- Rows 0..511 of the stacked weight. -/
theorem slice_lo (x : Mat 1536 1024) (hs : S1536x1024.Slices ![0, 0] S512x1024) (k : Fin 512) (h : Fin 1024) :
    extractStridedSlice S512x1024 ![0, 0] x hs (ix2 k h) = x (ix2 (lo k) h) :=
  extractStridedSlice_apply _ x hs (ix2 k h) (ix2 (lo k) h) (fun a => match a with
    | ⟨0, _⟩ => by show k.val = 0 + k.val; omega
    | ⟨1, _⟩ => by show h.val = 0 + h.val; omega)

/-- Rows 512..1023 of the stacked weight. -/
theorem slice_mid (x : Mat 1536 1024) (hs : S1536x1024.Slices ![512, 0] S512x1024) (k : Fin 512) (h : Fin 1024) :
    extractStridedSlice S512x1024 ![512, 0] x hs (ix2 k h) = x (ix2 (mid k) h) :=
  extractStridedSlice_apply _ x hs (ix2 k h) (ix2 (mid k) h) (fun a => match a with
    | ⟨0, _⟩ => by show 512 + k.val = 512 + k.val; rfl
    | ⟨1, _⟩ => by show h.val = 0 + h.val; omega)

/-- Rows 1024..1535 of the stacked weight. -/
theorem slice_hi (x : Mat 1536 1024) (hs : S1536x1024.Slices ![1024, 0] S512x1024) (k : Fin 512) (h : Fin 1024) :
    extractStridedSlice S512x1024 ![1024, 0] x hs (ix2 k h) = x (ix2 (hi k) h) :=
  extractStridedSlice_apply _ x hs (ix2 k h) (ix2 (hi k) h) (fun a => match a with
    | ⟨0, _⟩ => by show 1024 + k.val = 1024 + k.val; rfl
    | ⟨1, _⟩ => by show h.val = 0 + h.val; omega)

/-- A vector reshaped to a one-row matrix, read in its row. -/
theorem row_of_vec {n : Nat} (x : Vect n) (hc : (⟨1, ![n]⟩ : Shape).ShapeCasts ⟨2, ![1, n]⟩) (h : Fin n) :
    shapeCast (⟨2, ![1, n]⟩ : Shape) x hc (ix2 (0 : Fin 1) h) = x (ix1 h) := by
  refine (shapeCast_addUnit_apply (n := 1) ![n] x hc (ix2 (0 : Fin 1) h)).trans ?_
  exact congrArg x (funext fun a => match a with | ⟨0, _⟩ => rfl)

/-- The sum of the first and third blocks at (k, h). -/
theorem sum_blocks_entry (x : Mat 1536 1024) (h0 : S1536x1024.Slices ![0, 0] S512x1024) (h2 : S1536x1024.Slices ![1024, 0] S512x1024)
    (k : Fin 512) (h : Fin 1024) :
    (fun i => extractStridedSlice S512x1024 ![0, 0] x h0 i + extractStridedSlice S512x1024 ![1024, 0] x h2 i) (ix2 k h)
      = x (ix2 (lo k) h) + x (ix2 (hi k) h) := by
  show extractStridedSlice S512x1024 ![0, 0] x h0 (ix2 k h) + extractStridedSlice S512x1024 ![1024, 0] x h2 (ix2 k h) = _
  rw [slice_lo, slice_hi]

/-! ## The gathered object rows and the predicate rows -/

/-- The gathered rows the call reads are the reference's gather of the same arguments. -/
theorem inRows_eq (c : Dev nD) : inRows m c = rows m c := by
  show StableHlo.after hostOps0 (fun b => m (c, b)) (Proc.devRef .tc main_v12) = _
  after_results_simp
  rfl

/-- The predicate rows the call reads are the argument's. -/
theorem inPred_eq (c : Dev nD) : inPred m c = pred m c := by
  show StableHlo.after hostOps0 (fun b => m (c, b)) (Proc.devRef .tc main_v5) = _
  after_results
  rfl

/-! ## The first weight set -/

theorem inWooA_entry (c : Dev nD) (k : Fin 512) (h : Fin 1024) :
    inWooA m c (ix2 k h) = w1a m c (ix2 (lo k) h) + w1a m c (ix2 (hi k) h) := by
  have e : inWooA m c = fun i => extractStridedSlice S512x1024 ![0, 0] (w1a m c) Facts₀.slices_S1536x1024_S512x1024_0_0 i
      + extractStridedSlice S512x1024 ![1024, 0] (w1a m c) Facts₀.slices_S1536x1024_S512x1024_1024_0 i := by
    show StableHlo.after hostOps0 (fun b => m (c, b)) (Proc.devRef .tc main_v16) = _
    after_results
    rfl
  rw [e]
  exact sum_blocks_entry _ _ _ k h

theorem inWpA_entry (c : Dev nD) (k : Fin 512) (h : Fin 1024) : inWpA m c (ix2 k h) = w1a m c (ix2 (mid k) h) := by
  have e : inWpA m c = extractStridedSlice S512x1024 ![512, 0] (w1a m c) Facts₀.slices_S1536x1024_S512x1024_512_0 := by
    show StableHlo.after hostOps0 (fun b => m (c, b)) (Proc.devRef .tc main_v18) = _
    after_results
    rfl
  rw [e, slice_mid]

theorem inB1A_entry (c : Dev nD) (h : Fin 1024) : inB1A m c (ix2 (0 : Fin 1) h) = b1a m c (ix1 h) := by
  have e : inB1A m c = shapeCast S1x1024 (b1a m c) Facts₀.shapeCasts_S1024_S1x1024 := by
    show StableHlo.after hostOps0 (fun b => m (c, b)) (Proc.devRef .tc main_v20) = _
    after_results
    rfl
  rw [e]
  exact row_of_vec _ _ h

theorem inW2A_eq (c : Dev nD) : inW2A m c = w2a m c := by
  show StableHlo.after hostOps0 (fun b => m (c, b)) (Proc.devRef .tc main_v19) = _
  after_results
  rfl

theorem inB2A_entry (c : Dev nD) (q : Fin 512) : inB2A m c (ix2 (0 : Fin 1) q) = b2a m c (ix1 q) := by
  have e : inB2A m c = shapeCast S1x512 (b2a m c) Facts₀.shapeCasts_S512_S1x512 := by
    show StableHlo.after hostOps0 (fun b => m (c, b)) (Proc.devRef .tc main_v21) = _
    after_results
    rfl
  rw [e]
  exact row_of_vec _ _ q

/-! ## The second weight set -/

theorem inWooB_entry (c : Dev nD) (k : Fin 512) (h : Fin 1024) :
    inWooB m c (ix2 k h) = w1b m c (ix2 (lo k) h) + w1b m c (ix2 (hi k) h) := by
  have e : inWooB m c = fun i => extractStridedSlice S512x1024 ![0, 0] (w1b m c) Facts₀.slices_S1536x1024_S512x1024_0_0 i
      + extractStridedSlice S512x1024 ![1024, 0] (w1b m c) Facts₀.slices_S1536x1024_S512x1024_1024_0 i := by
    show StableHlo.after hostOps0 (fun b => m (c, b)) (Proc.devRef .tc main_v25) = _
    after_results
    rfl
  rw [e]
  exact sum_blocks_entry _ _ _ k h

theorem inWpB_entry (c : Dev nD) (k : Fin 512) (h : Fin 1024) : inWpB m c (ix2 k h) = w1b m c (ix2 (mid k) h) := by
  have e : inWpB m c = extractStridedSlice S512x1024 ![512, 0] (w1b m c) Facts₀.slices_S1536x1024_S512x1024_512_0 := by
    show StableHlo.after hostOps0 (fun b => m (c, b)) (Proc.devRef .tc main_v27) = _
    after_results
    rfl
  rw [e, slice_mid]

theorem inB1B_entry (c : Dev nD) (h : Fin 1024) : inB1B m c (ix2 (0 : Fin 1) h) = b1b m c (ix1 h) := by
  have e : inB1B m c = shapeCast S1x1024 (b1b m c) Facts₀.shapeCasts_S1024_S1x1024 := by
    show StableHlo.after hostOps0 (fun b => m (c, b)) (Proc.devRef .tc main_v29) = _
    after_results
    rfl
  rw [e]
  exact row_of_vec _ _ h

theorem inW2B_eq (c : Dev nD) : inW2B m c = w2b m c := by
  show StableHlo.after hostOps0 (fun b => m (c, b)) (Proc.devRef .tc main_v28) = _
  after_results
  rfl

theorem inB2B_entry (c : Dev nD) (q : Fin 512) : inB2B m c (ix2 (0 : Fin 1) q) = b2b m c (ix1 q) := by
  have e : inB2B m c = shapeCast S1x512 (b2b m c) Facts₀.shapeCasts_S512_S1x512 := by
    show StableHlo.after hostOps0 (fun b => m (c, b)) (Proc.devRef .tc main_v30) = _
    after_results
    rfl
  rw [e]
  exact row_of_vec _ _ q

/-! ## The third weight set -/

theorem inWooC_entry (c : Dev nD) (k : Fin 512) (h : Fin 1024) :
    inWooC m c (ix2 k h) = w1c m c (ix2 (lo k) h) + w1c m c (ix2 (hi k) h) := by
  have e : inWooC m c = fun i => extractStridedSlice S512x1024 ![0, 0] (w1c m c) Facts₀.slices_S1536x1024_S512x1024_0_0 i
      + extractStridedSlice S512x1024 ![1024, 0] (w1c m c) Facts₀.slices_S1536x1024_S512x1024_1024_0 i := by
    show StableHlo.after hostOps0 (fun b => m (c, b)) (Proc.devRef .tc main_v34) = _
    after_results
    rfl
  rw [e]
  exact sum_blocks_entry _ _ _ k h

theorem inWpC_entry (c : Dev nD) (k : Fin 512) (h : Fin 1024) : inWpC m c (ix2 k h) = w1c m c (ix2 (mid k) h) := by
  have e : inWpC m c = extractStridedSlice S512x1024 ![512, 0] (w1c m c) Facts₀.slices_S1536x1024_S512x1024_512_0 := by
    show StableHlo.after hostOps0 (fun b => m (c, b)) (Proc.devRef .tc main_v36) = _
    after_results
    rfl
  rw [e, slice_mid]

theorem inB1C_entry (c : Dev nD) (h : Fin 1024) : inB1C m c (ix2 (0 : Fin 1) h) = b1c m c (ix1 h) := by
  have e : inB1C m c = shapeCast S1x1024 (b1c m c) Facts₀.shapeCasts_S1024_S1x1024 := by
    show StableHlo.after hostOps0 (fun b => m (c, b)) (Proc.devRef .tc main_v38) = _
    after_results
    rfl
  rw [e]
  exact row_of_vec _ _ h

theorem inW2C_eq (c : Dev nD) : inW2C m c = w2c m c := by
  show StableHlo.after hostOps0 (fun b => m (c, b)) (Proc.devRef .tc main_v37) = _
  after_results
  rfl

theorem inB2C_entry (c : Dev nD) (q : Fin 512) : inB2C m c (ix2 (0 : Fin 1) q) = b2c m c (ix1 q) := by
  have e : inB2C m c = shapeCast S1x512 (b2c m c) Facts₀.shapeCasts_S512_S1x512 := by
    show StableHlo.after hostOps0 (fun b => m (c, b)) (Proc.devRef .tc main_v39) = _
    after_results
    rfl
  rw [e]
  exact row_of_vec _ _ q

end Cert.KernelIdeal.Head

end
-- ==== Proof.KerPayload.lean ====
/-
  The kernel body's arithmetic, read at an index.

  The body computes the same network three times, once per weight set; the three results are cut differently into named
  terms, but each is one function of seven loaded blocks: the object rows `o`, the predicate rows `p`, the two first-layer
  weight blocks `woo` and `wp`, the bias row `b1`, the second-layer weight `w2` and its bias row `b2`. At row `r` and column `q`:

    Σ_h max ((Σ_k o[r,k] · woo[k,h] + Σ_k p[r,k] · wp[k,h]) + b1[0,h]) 0 · w2[h,q] + b2[0,q].

  A matrix product into a zero accumulator is the plain sum at the ideal values, a change of float format is the identity, and a
  row broadcast reads row 0.
-/
import proofs.«160993_j55645596287598_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Idealize.ShloMosaic Idealize.ShloMosaic.TcCoe Idealize.ShloMosaic.ValueIdx
open Cert.KernelIdeal Cert.KernelIdeal.Gen

/-- The second output's cut of the body is the first's function of its own blocks. -/
theorem pay7_eq_pay4 {F : FTy → Type} [FloatOps F] (x0 x1 : Vec F S800x512 .bf16) (x7 x8 : Vec F S512x1024 .bf16) (x9 : Vec F S1x1024 .f32)
    (x10 : Vec F S1024x512 .bf16) (x11 : Vec F S1x512 .f32) :
    k0_pay7 (k0_pay5 x0 x7) (k0_pay6 x1 x8) x9 x10 x11 = k0_pay4 x0 x1 x7 x8 x9 x10 x11 := rfl

/-- The third output's cut of the body is the first's function of its own blocks. -/
theorem pay1_eq_pay4 {F : FTy → Type} [FloatOps F] (x0 x1 : Vec F S800x512 .bf16) (x12 x13 : Vec F S512x1024 .bf16) (x14 : Vec F S1x1024 .f32)
    (x15 : Vec F S1024x512 .bf16) (x16 : Vec F S1x512 .f32) :
    k0_pay1 (k0_pay8 (k0_pay2 x0) (k0_pay3 x1) x12 x13 x14 x15) (k0_pay9 x16) = k0_pay4 x0 x1 x12 x13 x14 x15 x16 := rfl

/-! ### The first-layer product's operand indices, axis by axis -/

theorem lhs_dot1_0 (i : S800x1024.Idx) (q : dot_S800x512_S512x1024_S800x1024_1_0_0_1_n_n.contr.Idx) :
    (dot_S800x512_S512x1024_S800x1024_1_0_0_1_n_n.lhsIdx i q 0).val = (i 0).val := by
  unfold DotDims.lhsIdx
  rw [dif_neg (show ¬(0 : Fin S800x512.rank) ∈ dot_S800x512_S512x1024_S800x1024_1_0_0_1_n_n.lhsBatch by decide), dif_pos (show (0 : Fin S800x512.rank) ∈ dot_S800x512_S512x1024_S800x1024_1_0_0_1_n_n.lhsNonContracting by decide)]
  rfl
theorem lhs_dot1_1 (i : S800x1024.Idx) (q : dot_S800x512_S512x1024_S800x1024_1_0_0_1_n_n.contr.Idx) :
    (dot_S800x512_S512x1024_S800x1024_1_0_0_1_n_n.lhsIdx i q 1).val = (q ⟨0, by decide⟩).val :=
  dot_S800x512_S512x1024_S800x1024_1_0_0_1_n_n.lhsIdx_val_of_single rfl i q
theorem rhs_dot1_0 (i : S800x1024.Idx) (q : dot_S800x512_S512x1024_S800x1024_1_0_0_1_n_n.contr.Idx) :
    (dot_S800x512_S512x1024_S800x1024_1_0_0_1_n_n.rhsIdx i q 0).val = (q ⟨0, by decide⟩).val :=
  dot_S800x512_S512x1024_S800x1024_1_0_0_1_n_n.rhsIdx_val_of_single rfl i q
theorem rhs_dot1_1 (i : S800x1024.Idx) (q : dot_S800x512_S512x1024_S800x1024_1_0_0_1_n_n.contr.Idx) :
    (dot_S800x512_S512x1024_S800x1024_1_0_0_1_n_n.rhsIdx i q 1).val = (i 1).val := by
  unfold DotDims.rhsIdx
  rw [dif_neg (show ¬(1 : Fin S512x1024.rank) ∈ dot_S800x512_S512x1024_S800x1024_1_0_0_1_n_n.rhsBatch by decide), dif_pos (show (1 : Fin S512x1024.rank) ∈ dot_S800x512_S512x1024_S800x1024_1_0_0_1_n_n.rhsNonContracting by decide)]
  rfl

/-- A first-layer product into the zero accumulator, at row `r` and hidden column `h`: the sum over the 512 inputs. -/
theorem matmul_dot1_apply (x : FVec Ideal S800x512 .bf16) (w : FVec Ideal S512x1024 .bf16) (r : Fin 800) (h : Fin 1024) :
    FloatOps.matmul dot_S800x512_S512x1024_S800x1024_1_0_0_1_n_n none x w (constant (F := Ideal) S800x1024 .f32 0x00000000#32) (ix2 r h)
      = ∑ k : Fin 512, x (ix2 r k) * w (ix2 k h) := by
  rw [Ideal.matmul_constant_zero_apply, ← Equiv.sum_comp (ValueIdx.contrEquiv1 dot_S800x512_S512x1024_S800x1024_1_0_0_1_n_n 512 rfl rfl).symm]
  refine Finset.sum_congr rfl fun k _ => ?_
  have hk := ValueIdx.contrEquiv1_symm_val dot_S800x512_S512x1024_S800x1024_1_0_0_1_n_n 512 rfl rfl k
  have el : dot_S800x512_S512x1024_S800x1024_1_0_0_1_n_n.lhsIdx (ix2 r h) ((ValueIdx.contrEquiv1 dot_S800x512_S512x1024_S800x1024_1_0_0_1_n_n 512 rfl rfl).symm k) = ix2 r k := funext fun a => Fin.ext (by
    match a with
    | ⟨0, _⟩ => exact lhs_dot1_0 _ _
    | ⟨1, _⟩ => exact (lhs_dot1_1 _ _).trans hk)
  have er : dot_S800x512_S512x1024_S800x1024_1_0_0_1_n_n.rhsIdx (ix2 r h) ((ValueIdx.contrEquiv1 dot_S800x512_S512x1024_S800x1024_1_0_0_1_n_n 512 rfl rfl).symm k) = ix2 k h := funext fun a => Fin.ext (by
    match a with
    | ⟨0, _⟩ => exact (rhs_dot1_0 _ _).trans hk
    | ⟨1, _⟩ => exact rhs_dot1_1 _ _)
  rw [el, er]

/-! ### The second-layer product's operand indices, axis by axis -/

theorem lhs_dot2_0 (i : S800x512.Idx) (q : dot_S800x1024_S1024x512_S800x512_1_0_0_1_n_n.contr.Idx) :
    (dot_S800x1024_S1024x512_S800x512_1_0_0_1_n_n.lhsIdx i q 0).val = (i 0).val := by
  unfold DotDims.lhsIdx
  rw [dif_neg (show ¬(0 : Fin S800x1024.rank) ∈ dot_S800x1024_S1024x512_S800x512_1_0_0_1_n_n.lhsBatch by decide), dif_pos (show (0 : Fin S800x1024.rank) ∈ dot_S800x1024_S1024x512_S800x512_1_0_0_1_n_n.lhsNonContracting by decide)]
  rfl
theorem lhs_dot2_1 (i : S800x512.Idx) (q : dot_S800x1024_S1024x512_S800x512_1_0_0_1_n_n.contr.Idx) :
    (dot_S800x1024_S1024x512_S800x512_1_0_0_1_n_n.lhsIdx i q 1).val = (q ⟨0, by decide⟩).val :=
  dot_S800x1024_S1024x512_S800x512_1_0_0_1_n_n.lhsIdx_val_of_single rfl i q
theorem rhs_dot2_0 (i : S800x512.Idx) (q : dot_S800x1024_S1024x512_S800x512_1_0_0_1_n_n.contr.Idx) :
    (dot_S800x1024_S1024x512_S800x512_1_0_0_1_n_n.rhsIdx i q 0).val = (q ⟨0, by decide⟩).val :=
  dot_S800x1024_S1024x512_S800x512_1_0_0_1_n_n.rhsIdx_val_of_single rfl i q
theorem rhs_dot2_1 (i : S800x512.Idx) (q : dot_S800x1024_S1024x512_S800x512_1_0_0_1_n_n.contr.Idx) :
    (dot_S800x1024_S1024x512_S800x512_1_0_0_1_n_n.rhsIdx i q 1).val = (i 1).val := by
  unfold DotDims.rhsIdx
  rw [dif_neg (show ¬(1 : Fin S1024x512.rank) ∈ dot_S800x1024_S1024x512_S800x512_1_0_0_1_n_n.rhsBatch by decide), dif_pos (show (1 : Fin S1024x512.rank) ∈ dot_S800x1024_S1024x512_S800x512_1_0_0_1_n_n.rhsNonContracting by decide)]
  rfl

/-- The second-layer product into the zero accumulator, at row `r` and output column `q`: the sum over the 1024 hidden units. -/
theorem matmul_dot2_apply (x : FVec Ideal S800x1024 .bf16) (w : FVec Ideal S1024x512 .bf16) (r : Fin 800) (q : Fin 512) :
    FloatOps.matmul dot_S800x1024_S1024x512_S800x512_1_0_0_1_n_n none x w (constant (F := Ideal) S800x512 .f32 0x00000000#32) (ix2 r q)
      = ∑ h : Fin 1024, x (ix2 r h) * w (ix2 h q) := by
  rw [Ideal.matmul_constant_zero_apply, ← Equiv.sum_comp (ValueIdx.contrEquiv1 dot_S800x1024_S1024x512_S800x512_1_0_0_1_n_n 1024 rfl rfl).symm]
  refine Finset.sum_congr rfl fun h _ => ?_
  have hk := ValueIdx.contrEquiv1_symm_val dot_S800x1024_S1024x512_S800x512_1_0_0_1_n_n 1024 rfl rfl h
  have el : dot_S800x1024_S1024x512_S800x512_1_0_0_1_n_n.lhsIdx (ix2 r q) ((ValueIdx.contrEquiv1 dot_S800x1024_S1024x512_S800x512_1_0_0_1_n_n 1024 rfl rfl).symm h) = ix2 r h := funext fun a => Fin.ext (by
    match a with
    | ⟨0, _⟩ => exact lhs_dot2_0 _ _
    | ⟨1, _⟩ => exact (lhs_dot2_1 _ _).trans hk)
  have er : dot_S800x1024_S1024x512_S800x512_1_0_0_1_n_n.rhsIdx (ix2 r q) ((ValueIdx.contrEquiv1 dot_S800x1024_S1024x512_S800x512_1_0_0_1_n_n 1024 rfl rfl).symm h) = ix2 h q := funext fun a => Fin.ext (by
    match a with
    | ⟨0, _⟩ => exact (rhs_dot2_0 _ _).trans hk
    | ⟨1, _⟩ => exact rhs_dot2_1 _ _)
  rw [el, er]

/-- The body's result at row `r`, column `q`, from the seven loaded blocks. -/
theorem pay4_apply (o p : FVec Ideal S800x512 .bf16) (woo wp : FVec Ideal S512x1024 .bf16) (b1 : FVec Ideal S1x1024 .f32)
    (w2 : FVec Ideal S1024x512 .bf16) (b2 : FVec Ideal S1x512 .f32) (r : Fin 800) (q : Fin 512) :
    k0_pay4 (F := Ideal) o p woo wp b1 w2 b2 (ix2 r q)
      = (∑ h : Fin 1024, max (((∑ k : Fin 512, o (ix2 r k) * woo (ix2 k h)) + ∑ k : Fin 512, p (ix2 r k) * wp (ix2 k h))
            + b1 (ix2 (0 : Fin 1) h)) (Ideal.ofBits .f32 0x00000000#32) * w2 (ix2 h q)) + b2 (ix2 (0 : Fin 1) q) := by
  unfold k0_pay4 k0_pay2 k0_pay3
  simp only [shapeCast_self, matmul]
  rw [addf_apply, broadcastTo_1b_ab_apply, matmul_dot2_apply]
  refine congrArg (· + b2 (ix2 (0 : Fin 1) q)) (Finset.sum_congr rfl fun h _ => ?_)
  rw [truncf_apply, maximumf_apply, addf_apply, addf_apply, broadcastTo_1b_ab_apply, matmul_dot1_apply, matmul_dot1_apply,
    broadcast_apply]
  rfl

end Cert.KernelIdeal.Payload

end
-- ==== Proof.KerArrays.lean ====
/-
  The three result arrays of the call, as whole-array functions.

  At grid point `t` the call writes rows `800 t … 800 t + 799` of each result; the object and predicate operands are read at the
  same rows and every weight operand whole. So the block a point writes back is the block of the specification's split
  network of the arrays the region finds, and the 125 blocks tile the result: each result array ends as that network.
-/
import proofs.«160993_j55645596287598_1_alg».proof.Proof.Gen.KernelIdeal.Frame
import proofs.«160993_j55645596287598_1_alg».proof.Proof.KerHead
import proofs.«160993_j55645596287598_1_alg».proof.Proof.KerPayload
import proofs.«160993_j55645596287598_1_alg».proof.Proof.MlpSpec
import Idealize.ShloMosaic.Lib.Pipeline.Value
import Idealize.ShloMosaic.Lib.ValueIdx

noncomputable section

namespace Cert.KernelIdeal.Arrays

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Head Cert.KernelIdeal.Payload Cert.EdgeMlp

variable (m : (ℓ : Loc nD τ sig) → Buf (Elt Ideal) ℓ)

theorem hz : (![0, 0] : Fin 2 → Nat) = fun _ => 0 := funext fun a => by fin_cases a <;> rfl

/-! ## Which block each operand shows at a point -/

/-- The row-blocked operands (object rows, predicate rows, the three results) show block `(t, 0)` at point `t`. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_17.index t (0 : Fin 2) = t.val ∧ win0_17.index t (1 : Fin 2) = 0
    ∧ win0_18.index t (0 : Fin 2) = t.val ∧ win0_18.index t (1 : Fin 2) = 0
    ∧ win0_19.index t (0 : Fin 2) = t.val ∧ win0_19.index t (1 : Fin 2) = 0 :=
  (by decide +kernel : ∀ t : Fin grid0.N, _)

/-- The first weight set's operands show their one block at every point. -/
theorem idx_setA : ∀ t : Fin cfg0.N,
    win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- Row `r` of the block of point `t`, as a row of the array. -/
def rowOf (t : Fin cfg0.N) (r : Fin 800) : Fin 100000 :=
  ⟨800 * t.val + r.val, by have := t.isLt; have hN : cfg0.N = 125 := N_0; omega⟩

/-! ## The operands' blocks at an entry -/

theorem blkRows_entry (c : Dev nD) (t : Fin cfg0.N) (r : Fin 800) (k : Fin 512) :
    (iblk m c 0 t : FVec Ideal S800x512 .bf16) (ix2 r k) = inRows m c (ix2 (rowOf t r) k) := by
  obtain ⟨e0, e1, -⟩ := idx_rows t
  unfold iblk
  rw [View.read_apply]
  show V m c main_v12 _ = V m c main_v12 _
  congr 1
  funext a
  apply Fin.ext
  match a with
  | ⟨0, _⟩ => show win0_0.index t (0 : Fin 2) * 800 + 1 * r.val = 800 * t.val + r.val; rw [e0]; omega
  | ⟨1, _⟩ => show win0_0.index t (1 : Fin 2) * 512 + 1 * k.val = k.val; rw [e1]; omega

theorem blkPred_entry (c : Dev nD) (t : Fin cfg0.N) (r : Fin 800) (k : Fin 512) :
    (iblk m c 1 t : FVec Ideal S800x512 .bf16) (ix2 r k) = inPred m c (ix2 (rowOf t r) k) := by
  obtain ⟨-, -, e0, e1, -⟩ := idx_rows t
  unfold iblk
  rw [View.read_apply]
  show V m c main_v5 _ = V m c main_v5 _
  congr 1
  funext a
  apply Fin.ext
  match a with
  | ⟨0, _⟩ => show win0_1.index t (0 : Fin 2) * 800 + 1 * r.val = 800 * t.val + r.val; rw [e0]; omega
  | ⟨1, _⟩ => show win0_1.index t (1 : Fin 2) * 512 + 1 * k.val = k.val; rw [e1]; omega

theorem blkWooA_entry (c : Dev nD) (t : Fin cfg0.N) (k : Fin 512) (h : Fin 1024) :
    (iblk m c 2 t : FVec Ideal S512x1024 .bf16) (ix2 k h) = inWooA m c (ix2 k h) := by
  obtain ⟨e0, e1, -⟩ := idx_setA t
  unfold iblk
  rw [View.read_apply]
  show V m c main_v16 _ = V m c main_v16 _
  congr 1
  funext a
  apply Fin.ext
  match a with
  | ⟨0, _⟩ => show win0_2.index t (0 : Fin 2) * 512 + 1 * k.val = k.val; rw [e0]; omega
  | ⟨1, _⟩ => show win0_2.index t (1 : Fin 2) * 1024 + 1 * h.val = h.val; rw [e1]; omega

theorem blkWpA_entry (c : Dev nD) (t : Fin cfg0.N) (k : Fin 512) (h : Fin 1024) :
    (iblk m c 3 t : FVec Ideal S512x1024 .bf16) (ix2 k h) = inWpA m c (ix2 k h) := by
  obtain ⟨-, -, e0, e1, -⟩ := idx_setA t
  unfold iblk
  rw [View.read_apply]
  show V m c main_v18 _ = V m c main_v18 _
  congr 1
  funext a
  apply Fin.ext
  match a with
  | ⟨0, _⟩ => show win0_3.index t (0 : Fin 2) * 512 + 1 * k.val = k.val; rw [e0]; omega
  | ⟨1, _⟩ => show win0_3.index t (1 : Fin 2) * 1024 + 1 * h.val = h.val; rw [e1]; omega

theorem blkB1A_entry (c : Dev nD) (t : Fin cfg0.N) (h : Fin 1024) :
    (iblk m c 4 t : FVec Ideal S1x1024 .f32) (ix2 (0 : Fin 1) h) = inB1A m c (ix2 (0 : Fin 1) h) := by
  obtain ⟨-, -, -, -, e0, e1, -⟩ := idx_setA t
  unfold iblk
  rw [View.read_apply]
  show V m c main_v20 _ = V m c main_v20 _
  congr 1
  funext a
  apply Fin.ext
  match a with
  | ⟨0, _⟩ => show win0_4.index t (0 : Fin 2) * 1 + 1 * 0 = 0; rw [e0]
  | ⟨1, _⟩ => show win0_4.index t (1 : Fin 2) * 1024 + 1 * h.val = h.val; rw [e1]; omega

theorem blkW2A_entry (c : Dev nD) (t : Fin cfg0.N) (h : Fin 1024) (q : Fin 512) :
    (iblk m c 5 t : FVec Ideal S1024x512 .bf16) (ix2 h q) = inW2A m c (ix2 h q) := by
  obtain ⟨-, -, -, -, -, -, e0, e1, -⟩ := idx_setA t
  unfold iblk
  rw [View.read_apply]
  show V m c main_v19 _ = V m c main_v19 _
  congr 1
  funext a
  apply Fin.ext
  match a with
  | ⟨0, _⟩ => show win0_5.index t (0 : Fin 2) * 1024 + 1 * h.val = h.val; rw [e0]; omega
  | ⟨1, _⟩ => show win0_5.index t (1 : Fin 2) * 512 + 1 * q.val = q.val; rw [e1]; omega

theorem blkB2A_entry (c : Dev nD) (t : Fin cfg0.N) (q : Fin 512) :
    (iblk m c 6 t : FVec Ideal S1x512 .f32) (ix2 (0 : Fin 1) q) = inB2A m c (ix2 (0 : Fin 1) q) := by
  obtain ⟨-, -, -, -, -, -, -, -, e0, e1⟩ := idx_setA t
  unfold iblk
  rw [View.read_apply]
  show V m c main_v21 _ = V m c main_v21 _
  congr 1
  funext a
  apply Fin.ext
  match a with
  | ⟨0, _⟩ => show win0_6.index t (0 : Fin 2) * 1 + 1 * 0 = 0; rw [e0]
  | ⟨1, _⟩ => show win0_6.index t (1 : Fin 2) * 512 + 1 * q.val = q.val; rw [e1]; omega

/-! ## The first result -/

/-- What the first result array ends holding. -/
abbrev specA (c : Dev nD) : Mat 100000 512 := mlpSplit (rows m c) (pred m c) (w1a m c) (b1a m c) (w2a m c) (b2a m c)

/-- The body's result on the blocks of point `t`, at row `r` and column `q`, is the network at row `800 t + r`. -/
theorem blockA (c : Dev nD) (t : Fin cfg0.N) (r : Fin 800) (q : Fin 512) :
    k0_pay4 (F := Ideal) (iblk m c 0 t) (iblk m c 1 t) (iblk m c 2 t) (iblk m c 3 t) (iblk m c 4 t) (iblk m c 5 t) (iblk m c 6 t) (ix2 r q)
      = specA m c (ix2 (rowOf t r) q) := by
  refine (pay4_apply (iblk m c 0 t) (iblk m c 1 t) (iblk m c 2 t) (iblk m c 3 t) (iblk m c 4 t) (iblk m c 5 t) (iblk m c 6 t) r q).trans ?_
  have hA : ∀ k : Fin 512, (iblk m c 0 t : FVec Ideal S800x512 .bf16) (ix2 r k) = rows m c (ix2 (rowOf t r) k) := fun k =>
    (blkRows_entry m c t r k).trans (congrFun (inRows_eq m c) _)
  have hP : ∀ k : Fin 512, (iblk m c 1 t : FVec Ideal S800x512 .bf16) (ix2 r k) = pred m c (ix2 (rowOf t r) k) := fun k =>
    (blkPred_entry m c t r k).trans (congrFun (inPred_eq m c) _)
  have hWoo : ∀ (k : Fin 512) (h : Fin 1024), (iblk m c 2 t : FVec Ideal S512x1024 .bf16) (ix2 k h)
      = w1a m c (ix2 (lo k) h) + w1a m c (ix2 (hi k) h) := fun k h => (blkWooA_entry m c t k h).trans (inWooA_entry m c k h)
  have hWp : ∀ (k : Fin 512) (h : Fin 1024), (iblk m c 3 t : FVec Ideal S512x1024 .bf16) (ix2 k h) = w1a m c (ix2 (mid k) h) :=
    fun k h => (blkWpA_entry m c t k h).trans (inWpA_entry m c k h)
  have hB1 : ∀ h : Fin 1024, (iblk m c 4 t : FVec Ideal S1x1024 .f32) (ix2 (0 : Fin 1) h) = b1a m c (ix1 h) := fun h =>
    (blkB1A_entry m c t h).trans (inB1A_entry m c h)
  have hW2 : ∀ (h : Fin 1024) (q : Fin 512), (iblk m c 5 t : FVec Ideal S1024x512 .bf16) (ix2 h q) = w2a m c (ix2 h q) := fun h q =>
    (blkW2A_entry m c t h q).trans (congrFun (inW2A_eq m c) _)
  have hB2 : (iblk m c 6 t : FVec Ideal S1x512 .f32) (ix2 (0 : Fin 1) q) = b2a m c (ix1 q) :=
    (blkB2A_entry m c t q).trans (inB2A_entry m c q)
  simp only [hA, hP, hWoo, hWp, hB1, hW2, hB2]
  rfl

/-- What point `t` writes back of the first result is block `t` of the network. -/
theorem flushedA_eq (c : Dev nD) (t : Fin cfg0.N) :
    (dats m 0 c).flushed 17 t = ((cfg0.win 17).blk t).view.read (Elt Ideal) (specA m c) := by
  show (cfg0.win 17).cut (grid0.coords t) ((dats m 0 c).after 17 t) = _
  rw [after0_17]
  unfold out0_17
  rw [View.canon_unit_zero hz]
  simp only [View.ld_unit_zero (S := S800x512) hz, View.ld_unit_zero (S := S512x1024) hz, View.ld_unit_zero (S := S1x1024) hz,
    View.ld_unit_zero (S := S1024x512) hz, View.ld_unit_zero (S := S1x512) hz]
  obtain ⟨-, -, -, -, e0, e1, -⟩ := idx_rows t
  funext j
  obtain ⟨r, q, rfl⟩ : ∃ (r : Fin 800) (q : Fin 512), j = ix2 r q := ⟨j 0, j 1, eq_ix2 j⟩
  show k0_pay4 (F := Ideal) (iblk m c 0 t) (iblk m c 1 t) (iblk m c 2 t) (iblk m c 3 t) (iblk m c 4 t) (iblk m c 5 t) (iblk m c 6 t) (ix2 r q)
    = specA m c (((cfg0.win 17).blk t).view.emb (ix2 r q))
  refine (blockA m c t r q).trans (congrArg (specA m c) ?_)
  funext a
  apply Fin.ext
  match a with
  | ⟨0, _⟩ => show 800 * t.val + r.val = win0_17.index t (0 : Fin 2) * 800 + 1 * r.val; rw [e0]; omega
  | ⟨1, _⟩ => show q.val = win0_17.index t (1 : Fin 2) * 512 + 1 * q.val; rw [e1]; omega

/-- An index of the first result is in point `t`'s block iff each coordinate is in the block's range. -/
theorem mem_blkA (t : Fin cfg0.N) (i : S100000x512.Idx) :
    i ∈ ((cfg0.win 17).blk t).view.set ↔ ∀ a : Fin 2, win0_17.index t a * S800x512.size a ≤ (i a).val
      ∧ (i a).val < win0_17.index t a * S800x512.size a + S800x512.size a := by
  show i ∈ ((View.whole main_v40_0).slice (win0_17.rect t)).set ↔ _
  rw [View.set_slice_whole, Rect.mem_set_unit]
  exact Iff.rfl

/-- Every index of the first result lies in the block of the point its row falls in. -/
theorem coverA (i : S100000x512.Idx) : ∃ t : Fin cfg0.N, (cfg0.win 17).flush t = true ∧ i ∈ ((cfg0.win 17).blk t).view.set := by
  have hi0 : (i 0).val < 100000 := (i 0).isLt
  have hi1 : (i 1).val < 512 := (i 1).isLt
  have hN : cfg0.N = 125 := N_0
  obtain ⟨t, ht⟩ : ∃ t : Fin cfg0.N, t.val = (i 0).val / 800 := ⟨⟨(i 0).val / 800, by rw [hN]; omega⟩, rfl⟩
  obtain ⟨-, -, -, -, e0, e1, -⟩ := idx_rows t
  refine ⟨t, flush0_17 t, ?_⟩
  rw [mem_blkA]
  intro a
  match a with
  | ⟨0, _⟩ =>
    show win0_17.index t (0 : Fin 2) * 800 ≤ (i 0).val ∧ (i 0).val < win0_17.index t (0 : Fin 2) * 800 + 800
    rw [e0, ht]; omega
  | ⟨1, _⟩ =>
    show win0_17.index t (1 : Fin 2) * 512 ≤ (i 1).val ∧ (i 1).val < win0_17.index t (1 : Fin 2) * 512 + 512
    rw [e1]; omega

/-- The first result array after the run is the network of the arrays the region finds. -/
theorem finalA (c : Dev nD) : (dats m 0 c).arrAt 17 cfg0.N = specA m c :=
  (dats m 0 c).arrAt_eq_of_cover 17 (specA m c) (fun t _ => flushedA_eq m c t) coverA

/-! ## The second weight set's operands and the second result -/

/-- The second weight set's operands show their one block at every point. -/
theorem idx_setB : ∀ t : Fin cfg0.N,
    win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0 :=
  (by decide +kernel : ∀ t : Fin grid0.N, _)

theorem blkWooB_entry (c : Dev nD) (t : Fin cfg0.N) (k : Fin 512) (h : Fin 1024) :
    (iblk m c 7 t : FVec Ideal S512x1024 .bf16) (ix2 k h) = inWooB m c (ix2 k h) := by
  obtain ⟨e0, e1, -⟩ := idx_setB t
  unfold iblk
  rw [View.read_apply]
  show V m c main_v25 _ = V m c main_v25 _
  congr 1
  funext a
  apply Fin.ext
  match a with
  | ⟨0, _⟩ => show win0_7.index t (0 : Fin 2) * 512 + 1 * k.val = k.val; rw [e0]; omega
  | ⟨1, _⟩ => show win0_7.index t (1 : Fin 2) * 1024 + 1 * h.val = h.val; rw [e1]; omega

theorem blkWpB_entry (c : Dev nD) (t : Fin cfg0.N) (k : Fin 512) (h : Fin 1024) :
    (iblk m c 8 t : FVec Ideal S512x1024 .bf16) (ix2 k h) = inWpB m c (ix2 k h) := by
  obtain ⟨-, -, e0, e1, -⟩ := idx_setB t
  unfold iblk
  rw [View.read_apply]
  show V m c main_v27 _ = V m c main_v27 _
  congr 1
  funext a
  apply Fin.ext
  match a with
  | ⟨0, _⟩ => show win0_8.index t (0 : Fin 2) * 512 + 1 * k.val = k.val; rw [e0]; omega
  | ⟨1, _⟩ => show win0_8.index t (1 : Fin 2) * 1024 + 1 * h.val = h.val; rw [e1]; omega

theorem blkB1B_entry (c : Dev nD) (t : Fin cfg0.N) (h : Fin 1024) :
    (iblk m c 9 t : FVec Ideal S1x1024 .f32) (ix2 (0 : Fin 1) h) = inB1B m c (ix2 (0 : Fin 1) h) := by
  obtain ⟨-, -, -, -, e0, e1, -⟩ := idx_setB t
  unfold iblk
  rw [View.read_apply]
  show V m c main_v29 _ = V m c main_v29 _
  congr 1
  funext a
  apply Fin.ext
  match a with
  | ⟨0, _⟩ => show win0_9.index t (0 : Fin 2) * 1 + 1 * 0 = 0; rw [e0]
  | ⟨1, _⟩ => show win0_9.index t (1 : Fin 2) * 1024 + 1 * h.val = h.val; rw [e1]; omega

theorem blkW2B_entry (c : Dev nD) (t : Fin cfg0.N) (h : Fin 1024) (q : Fin 512) :
    (iblk m c 10 t : FVec Ideal S1024x512 .bf16) (ix2 h q) = inW2B m c (ix2 h q) := by
  obtain ⟨-, -, -, -, -, -, e0, e1, -⟩ := idx_setB t
  unfold iblk
  rw [View.read_apply]
  show V m c main_v28 _ = V m c main_v28 _
  congr 1
  funext a
  apply Fin.ext
  match a with
  | ⟨0, _⟩ => show win0_10.index t (0 : Fin 2) * 1024 + 1 * h.val = h.val; rw [e0]; omega
  | ⟨1, _⟩ => show win0_10.index t (1 : Fin 2) * 512 + 1 * q.val = q.val; rw [e1]; omega

theorem blkB2B_entry (c : Dev nD) (t : Fin cfg0.N) (q : Fin 512) :
    (iblk m c 11 t : FVec Ideal S1x512 .f32) (ix2 (0 : Fin 1) q) = inB2B m c (ix2 (0 : Fin 1) q) := by
  obtain ⟨-, -, -, -, -, -, -, -, e0, e1⟩ := idx_setB t
  unfold iblk
  rw [View.read_apply]
  show V m c main_v30 _ = V m c main_v30 _
  congr 1
  funext a
  apply Fin.ext
  match a with
  | ⟨0, _⟩ => show win0_11.index t (0 : Fin 2) * 1 + 1 * 0 = 0; rw [e0]
  | ⟨1, _⟩ => show win0_11.index t (1 : Fin 2) * 512 + 1 * q.val = q.val; rw [e1]; omega

/-- What the second result array ends holding. -/
abbrev specB (c : Dev nD) : Mat 100000 512 := mlpSplit (rows m c) (pred m c) (w1b m c) (b1b m c) (w2b m c) (b2b m c)

/-- The body's second result on the blocks of point `t` is the network of the second weight set at row `800 t + r`. -/
theorem blockB (c : Dev nD) (t : Fin cfg0.N) (r : Fin 800) (q : Fin 512) :
    k0_pay4 (F := Ideal) (iblk m c 0 t) (iblk m c 1 t) (iblk m c 7 t) (iblk m c 8 t) (iblk m c 9 t) (iblk m c 10 t) (iblk m c 11 t) (ix2 r q)
      = specB m c (ix2 (rowOf t r) q) := by
  refine (pay4_apply (iblk m c 0 t) (iblk m c 1 t) (iblk m c 7 t) (iblk m c 8 t) (iblk m c 9 t) (iblk m c 10 t) (iblk m c 11 t) r q).trans ?_
  have hA : ∀ k : Fin 512, (iblk m c 0 t : FVec Ideal S800x512 .bf16) (ix2 r k) = rows m c (ix2 (rowOf t r) k) := fun k =>
    (blkRows_entry m c t r k).trans (congrFun (inRows_eq m c) _)
  have hP : ∀ k : Fin 512, (iblk m c 1 t : FVec Ideal S800x512 .bf16) (ix2 r k) = pred m c (ix2 (rowOf t r) k) := fun k =>
    (blkPred_entry m c t r k).trans (congrFun (inPred_eq m c) _)
  have hWoo : ∀ (k : Fin 512) (h : Fin 1024), (iblk m c 7 t : FVec Ideal S512x1024 .bf16) (ix2 k h)
      = w1b m c (ix2 (lo k) h) + w1b m c (ix2 (hi k) h) := fun k h => (blkWooB_entry m c t k h).trans (inWooB_entry m c k h)
  have hWp : ∀ (k : Fin 512) (h : Fin 1024), (iblk m c 8 t : FVec Ideal S512x1024 .bf16) (ix2 k h) = w1b m c (ix2 (mid k) h) :=
    fun k h => (blkWpB_entry m c t k h).trans (inWpB_entry m c k h)
  have hB1 : ∀ h : Fin 1024, (iblk m c 9 t : FVec Ideal S1x1024 .f32) (ix2 (0 : Fin 1) h) = b1b m c (ix1 h) := fun h =>
    (blkB1B_entry m c t h).trans (inB1B_entry m c h)
  have hW2 : ∀ (h : Fin 1024) (q : Fin 512), (iblk m c 10 t : FVec Ideal S1024x512 .bf16) (ix2 h q) = w2b m c (ix2 h q) := fun h q =>
    (blkW2B_entry m c t h q).trans (congrFun (inW2B_eq m c) _)
  have hB2 : (iblk m c 11 t : FVec Ideal S1x512 .f32) (ix2 (0 : Fin 1) q) = b2b m c (ix1 q) :=
    (blkB2B_entry m c t q).trans (inB2B_entry m c q)
  simp only [hA, hP, hWoo, hWp, hB1, hW2, hB2]
  rfl

/-- What point `t` writes back of the second result is block `t` of the network. -/
theorem flushedB_eq (c : Dev nD) (t : Fin cfg0.N) :
    (dats m 0 c).flushed 18 t = ((cfg0.win 18).blk t).view.read (Elt Ideal) (specB m c) := by
  show (cfg0.win 18).cut (grid0.coords t) ((dats m 0 c).after 18 t) = _
  rw [after0_18]
  unfold out0_18
  rw [View.canon_unit_zero hz]
  simp only [View.ld_unit_zero (S := S800x512) hz, View.ld_unit_zero (S := S512x1024) hz, View.ld_unit_zero (S := S1x1024) hz,
    View.ld_unit_zero (S := S1024x512) hz, View.ld_unit_zero (S := S1x512) hz]
  obtain ⟨-, -, -, -, -, -, e0, e1, -⟩ := idx_rows t
  funext j
  obtain ⟨r, q, rfl⟩ : ∃ (r : Fin 800) (q : Fin 512), j = ix2 r q := ⟨j 0, j 1, eq_ix2 j⟩
  show k0_pay7 (F := Ideal) (k0_pay5 (iblk m c 0 t) (iblk m c 7 t)) (k0_pay6 (iblk m c 1 t) (iblk m c 8 t)) (iblk m c 9 t) (iblk m c 10 t)
      (iblk m c 11 t) (ix2 r q)
    = specB m c (((cfg0.win 18).blk t).view.emb (ix2 r q))
  refine (congrFun (pay7_eq_pay4 (F := Ideal) (iblk m c 0 t) (iblk m c 1 t) (iblk m c 7 t) (iblk m c 8 t) (iblk m c 9 t) (iblk m c 10 t)
    (iblk m c 11 t)) (ix2 r q)).trans ?_
  refine (blockB m c t r q).trans (congrArg (specB m c) ?_)
  funext a
  apply Fin.ext
  match a with
  | ⟨0, _⟩ => show 800 * t.val + r.val = win0_18.index t (0 : Fin 2) * 800 + 1 * r.val; rw [e0]; omega
  | ⟨1, _⟩ => show q.val = win0_18.index t (1 : Fin 2) * 512 + 1 * q.val; rw [e1]; omega

/-- An index of the second result is in point `t`'s block iff each coordinate is in the block's range. -/
theorem mem_blkB (t : Fin cfg0.N) (i : S100000x512.Idx) :
    i ∈ ((cfg0.win 18).blk t).view.set ↔ ∀ a : Fin 2, win0_18.index t a * S800x512.size a ≤ (i a).val
      ∧ (i a).val < win0_18.index t a * S800x512.size a + S800x512.size a := by
  show i ∈ ((View.whole main_v40_1).slice (win0_18.rect t)).set ↔ _
  rw [View.set_slice_whole, Rect.mem_set_unit]
  exact Iff.rfl

/-- Every index of the second result lies in the block of the point its row falls in. -/
theorem coverB (i : S100000x512.Idx) : ∃ t : Fin cfg0.N, (cfg0.win 18).flush t = true ∧ i ∈ ((cfg0.win 18).blk t).view.set := by
  have hi0 : (i 0).val < 100000 := (i 0).isLt
  have hi1 : (i 1).val < 512 := (i 1).isLt
  have hN : cfg0.N = 125 := N_0
  obtain ⟨t, ht⟩ : ∃ t : Fin cfg0.N, t.val = (i 0).val / 800 := ⟨⟨(i 0).val / 800, by rw [hN]; omega⟩, rfl⟩
  obtain ⟨-, -, -, -, -, -, e0, e1, -⟩ := idx_rows t
  refine ⟨t, flush0_18 t, ?_⟩
  rw [mem_blkB]
  intro a
  match a with
  | ⟨0, _⟩ =>
    show win0_18.index t (0 : Fin 2) * 800 ≤ (i 0).val ∧ (i 0).val < win0_18.index t (0 : Fin 2) * 800 + 800
    rw [e0, ht]; omega
  | ⟨1, _⟩ =>
    show win0_18.index t (1 : Fin 2) * 512 ≤ (i 1).val ∧ (i 1).val < win0_18.index t (1 : Fin 2) * 512 + 512
    rw [e1]; omega

/-- The second result array after the run is the network of the second weight set. -/
theorem finalB (c : Dev nD) : (dats m 0 c).arrAt 18 cfg0.N = specB m c :=
  (dats m 0 c).arrAt_eq_of_cover 18 (specB m c) (fun t _ => flushedB_eq m c t) coverB

/-! ## The third weight set's operands and the third result -/

/-- The third weight set's operands show their one block at every point. -/
theorem idx_setC : ∀ t : Fin cfg0.N,
    win0_12.index t (0 : Fin 2) = 0 ∧ win0_12.index t (1 : Fin 2) = 0
    ∧ win0_13.index t (0 : Fin 2) = 0 ∧ win0_13.index t (1 : Fin 2) = 0
    ∧ win0_14.index t (0 : Fin 2) = 0 ∧ win0_14.index t (1 : Fin 2) = 0
    ∧ win0_15.index t (0 : Fin 2) = 0 ∧ win0_15.index t (1 : Fin 2) = 0
    ∧ win0_16.index t (0 : Fin 2) = 0 ∧ win0_16.index t (1 : Fin 2) = 0 :=
  (by decide +kernel : ∀ t : Fin grid0.N, _)

theorem blkWooC_entry (c : Dev nD) (t : Fin cfg0.N) (k : Fin 512) (h : Fin 1024) :
    (iblk m c 12 t : FVec Ideal S512x1024 .bf16) (ix2 k h) = inWooC m c (ix2 k h) := by
  obtain ⟨e0, e1, -⟩ := idx_setC t
  unfold iblk
  rw [View.read_apply]
  show V m c main_v34 _ = V m c main_v34 _
  congr 1
  funext a
  apply Fin.ext
  match a with
  | ⟨0, _⟩ => show win0_12.index t (0 : Fin 2) * 512 + 1 * k.val = k.val; rw [e0]; omega
  | ⟨1, _⟩ => show win0_12.index t (1 : Fin 2) * 1024 + 1 * h.val = h.val; rw [e1]; omega

theorem blkWpC_entry (c : Dev nD) (t : Fin cfg0.N) (k : Fin 512) (h : Fin 1024) :
    (iblk m c 13 t : FVec Ideal S512x1024 .bf16) (ix2 k h) = inWpC m c (ix2 k h) := by
  obtain ⟨-, -, e0, e1, -⟩ := idx_setC t
  unfold iblk
  rw [View.read_apply]
  show V m c main_v36 _ = V m c main_v36 _
  congr 1
  funext a
  apply Fin.ext
  match a with
  | ⟨0, _⟩ => show win0_13.index t (0 : Fin 2) * 512 + 1 * k.val = k.val; rw [e0]; omega
  | ⟨1, _⟩ => show win0_13.index t (1 : Fin 2) * 1024 + 1 * h.val = h.val; rw [e1]; omega

theorem blkB1C_entry (c : Dev nD) (t : Fin cfg0.N) (h : Fin 1024) :
    (iblk m c 14 t : FVec Ideal S1x1024 .f32) (ix2 (0 : Fin 1) h) = inB1C m c (ix2 (0 : Fin 1) h) := by
  obtain ⟨-, -, -, -, e0, e1, -⟩ := idx_setC t
  unfold iblk
  rw [View.read_apply]
  show V m c main_v38 _ = V m c main_v38 _
  congr 1
  funext a
  apply Fin.ext
  match a with
  | ⟨0, _⟩ => show win0_14.index t (0 : Fin 2) * 1 + 1 * 0 = 0; rw [e0]
  | ⟨1, _⟩ => show win0_14.index t (1 : Fin 2) * 1024 + 1 * h.val = h.val; rw [e1]; omega

theorem blkW2C_entry (c : Dev nD) (t : Fin cfg0.N) (h : Fin 1024) (q : Fin 512) :
    (iblk m c 15 t : FVec Ideal S1024x512 .bf16) (ix2 h q) = inW2C m c (ix2 h q) := by
  obtain ⟨-, -, -, -, -, -, e0, e1, -⟩ := idx_setC t
  unfold iblk
  rw [View.read_apply]
  show V m c main_v37 _ = V m c main_v37 _
  congr 1
  funext a
  apply Fin.ext
  match a with
  | ⟨0, _⟩ => show win0_15.index t (0 : Fin 2) * 1024 + 1 * h.val = h.val; rw [e0]; omega
  | ⟨1, _⟩ => show win0_15.index t (1 : Fin 2) * 512 + 1 * q.val = q.val; rw [e1]; omega

theorem blkB2C_entry (c : Dev nD) (t : Fin cfg0.N) (q : Fin 512) :
    (iblk m c 16 t : FVec Ideal S1x512 .f32) (ix2 (0 : Fin 1) q) = inB2C m c (ix2 (0 : Fin 1) q) := by
  obtain ⟨-, -, -, -, -, -, -, -, e0, e1⟩ := idx_setC t
  unfold iblk
  rw [View.read_apply]
  show V m c main_v39 _ = V m c main_v39 _
  congr 1
  funext a
  apply Fin.ext
  match a with
  | ⟨0, _⟩ => show win0_16.index t (0 : Fin 2) * 1 + 1 * 0 = 0; rw [e0]
  | ⟨1, _⟩ => show win0_16.index t (1 : Fin 2) * 512 + 1 * q.val = q.val; rw [e1]; omega

/-- What the third result array ends holding. -/
abbrev specC (c : Dev nD) : Mat 100000 512 := mlpSplit (rows m c) (pred m c) (w1c m c) (b1c m c) (w2c m c) (b2c m c)

/-- The body's third result on the blocks of point `t` is the network of the third weight set at row `800 t + r`. -/
theorem blockC (c : Dev nD) (t : Fin cfg0.N) (r : Fin 800) (q : Fin 512) :
    k0_pay4 (F := Ideal) (iblk m c 0 t) (iblk m c 1 t) (iblk m c 12 t) (iblk m c 13 t) (iblk m c 14 t) (iblk m c 15 t) (iblk m c 16 t) (ix2 r q)
      = specC m c (ix2 (rowOf t r) q) := by
  refine (pay4_apply (iblk m c 0 t) (iblk m c 1 t) (iblk m c 12 t) (iblk m c 13 t) (iblk m c 14 t) (iblk m c 15 t) (iblk m c 16 t) r q).trans ?_
  have hA : ∀ k : Fin 512, (iblk m c 0 t : FVec Ideal S800x512 .bf16) (ix2 r k) = rows m c (ix2 (rowOf t r) k) := fun k =>
    (blkRows_entry m c t r k).trans (congrFun (inRows_eq m c) _)
  have hP : ∀ k : Fin 512, (iblk m c 1 t : FVec Ideal S800x512 .bf16) (ix2 r k) = pred m c (ix2 (rowOf t r) k) := fun k =>
    (blkPred_entry m c t r k).trans (congrFun (inPred_eq m c) _)
  have hWoo : ∀ (k : Fin 512) (h : Fin 1024), (iblk m c 12 t : FVec Ideal S512x1024 .bf16) (ix2 k h)
      = w1c m c (ix2 (lo k) h) + w1c m c (ix2 (hi k) h) := fun k h => (blkWooC_entry m c t k h).trans (inWooC_entry m c k h)
  have hWp : ∀ (k : Fin 512) (h : Fin 1024), (iblk m c 13 t : FVec Ideal S512x1024 .bf16) (ix2 k h) = w1c m c (ix2 (mid k) h) :=
    fun k h => (blkWpC_entry m c t k h).trans (inWpC_entry m c k h)
  have hB1 : ∀ h : Fin 1024, (iblk m c 14 t : FVec Ideal S1x1024 .f32) (ix2 (0 : Fin 1) h) = b1c m c (ix1 h) := fun h =>
    (blkB1C_entry m c t h).trans (inB1C_entry m c h)
  have hW2 : ∀ (h : Fin 1024) (q : Fin 512), (iblk m c 15 t : FVec Ideal S1024x512 .bf16) (ix2 h q) = w2c m c (ix2 h q) := fun h q =>
    (blkW2C_entry m c t h q).trans (congrFun (inW2C_eq m c) _)
  have hB2 : (iblk m c 16 t : FVec Ideal S1x512 .f32) (ix2 (0 : Fin 1) q) = b2c m c (ix1 q) :=
    (blkB2C_entry m c t q).trans (inB2C_entry m c q)
  simp only [hA, hP, hWoo, hWp, hB1, hW2, hB2]
  rfl

/-- What point `t` writes back of the third result is block `t` of the network. -/
theorem flushedC_eq (c : Dev nD) (t : Fin cfg0.N) :
    (dats m 0 c).flushed 19 t = ((cfg0.win 19).blk t).view.read (Elt Ideal) (specC m c) := by
  show (cfg0.win 19).cut (grid0.coords t) ((dats m 0 c).after 19 t) = _
  rw [after0_19]
  unfold out0_19
  rw [View.canon_unit_zero hz]
  simp only [View.ld_unit_zero (S := S800x512) hz, View.ld_unit_zero (S := S512x1024) hz, View.ld_unit_zero (S := S1x1024) hz,
    View.ld_unit_zero (S := S1024x512) hz, View.ld_unit_zero (S := S1x512) hz]
  obtain ⟨-, -, -, -, -, -, -, -, e0, e1⟩ := idx_rows t
  funext j
  obtain ⟨r, q, rfl⟩ : ∃ (r : Fin 800) (q : Fin 512), j = ix2 r q := ⟨j 0, j 1, eq_ix2 j⟩
  show k0_pay1 (F := Ideal) (k0_pay8 (k0_pay2 (iblk m c 0 t)) (k0_pay3 (iblk m c 1 t)) (iblk m c 12 t) (iblk m c 13 t) (iblk m c 14 t)
      (iblk m c 15 t)) (k0_pay9 (iblk m c 16 t)) (ix2 r q)
    = specC m c (((cfg0.win 19).blk t).view.emb (ix2 r q))
  refine (congrFun (pay1_eq_pay4 (F := Ideal) (iblk m c 0 t) (iblk m c 1 t) (iblk m c 12 t) (iblk m c 13 t) (iblk m c 14 t) (iblk m c 15 t)
    (iblk m c 16 t)) (ix2 r q)).trans ?_
  refine (blockC m c t r q).trans (congrArg (specC m c) ?_)
  funext a
  apply Fin.ext
  match a with
  | ⟨0, _⟩ => show 800 * t.val + r.val = win0_19.index t (0 : Fin 2) * 800 + 1 * r.val; rw [e0]; omega
  | ⟨1, _⟩ => show q.val = win0_19.index t (1 : Fin 2) * 512 + 1 * q.val; rw [e1]; omega

/-- An index of the third result is in point `t`'s block iff each coordinate is in the block's range. -/
theorem mem_blkC (t : Fin cfg0.N) (i : S100000x512.Idx) :
    i ∈ ((cfg0.win 19).blk t).view.set ↔ ∀ a : Fin 2, win0_19.index t a * S800x512.size a ≤ (i a).val
      ∧ (i a).val < win0_19.index t a * S800x512.size a + S800x512.size a := by
  show i ∈ ((View.whole main_v40_2).slice (win0_19.rect t)).set ↔ _
  rw [View.set_slice_whole, Rect.mem_set_unit]
  exact Iff.rfl

/-- Every index of the third result lies in the block of the point its row falls in. -/
theorem coverC (i : S100000x512.Idx) : ∃ t : Fin cfg0.N, (cfg0.win 19).flush t = true ∧ i ∈ ((cfg0.win 19).blk t).view.set := by
  have hi0 : (i 0).val < 100000 := (i 0).isLt
  have hi1 : (i 1).val < 512 := (i 1).isLt
  have hN : cfg0.N = 125 := N_0
  obtain ⟨t, ht⟩ : ∃ t : Fin cfg0.N, t.val = (i 0).val / 800 := ⟨⟨(i 0).val / 800, by rw [hN]; omega⟩, rfl⟩
  obtain ⟨-, -, -, -, -, -, -, -, e0, e1⟩ := idx_rows t
  refine ⟨t, flush0_19 t, ?_⟩
  rw [mem_blkC]
  intro a
  match a with
  | ⟨0, _⟩ =>
    show win0_19.index t (0 : Fin 2) * 800 ≤ (i 0).val ∧ (i 0).val < win0_19.index t (0 : Fin 2) * 800 + 800
    rw [e0, ht]; omega
  | ⟨1, _⟩ =>
    show win0_19.index t (1 : Fin 2) * 512 ≤ (i 1).val ∧ (i 1).val < win0_19.index t (1 : Fin 2) * 512 + 512
    rw [e1]; omega

/-- The third result array after the run is the network of the third weight set. -/
theorem finalC (c : Dev nD) : (dats m 0 c).arrAt 19 cfg0.N = specC m c :=
  (dats m 0 c).arrAt_eq_of_cover 19 (specC m c) (fun t _ => flushedC_eq m c t) coverC

end Cert.KernelIdeal.Arrays

end
-- ==== Proof.RefTail.lean ====
/-
  The aggregation both programs end with, as ONE function of the edge list and the two per-edge results.

  Each object sums the subject-side results of the edges whose first endpoint it is and the object-side results of the edges
  whose second endpoint it is (two scatter-adds into zeros), and divides by the number of such edges, at least one. Both
  programs apply exactly these host operations; the certificate never opens them.
-/
import proofs.«160993_j55645596287598_1_alg».proof.Proof.Gen.ReferenceIdeal.Read

noncomputable section

namespace Cert.ReferenceIdeal.RefTail

open Idealize.ShloMosaic Idealize.ShloMosaic.TcCoe
open Cert.ReferenceIdeal Cert.ReferenceIdeal.Gen Cert.ReferenceIdeal.Read

variable {F : FTy → Type} [FloatOps F]

/-- The new object vectors from the edge list `e`, the subject-side results `ns` and the object-side results `no`. -/
def aggregate (e : (⟨S100000x2, .i32⟩ : BufTy).Contents (Elt F)) (ns no : (⟨S100000x512, .f32⟩ : BufTy).Contents (Elt F)) :
    (⟨S50000x512, .f32⟩ : BufTy).Contents (Elt F) :=
  Host.divf
    (addf (Host.scatterAdd scatter_S50000x512_S100000x1_S100000x512_1_0_0_1 (val_main_v42 (F := F)) (val_main_v43 (F := F) e) ns)
      (Host.scatterAdd scatter_S50000x512_S100000x1_S100000x512_1_0_0_1 (val_main_v45 (F := F)) (val_main_v46 (F := F) e) no))
    (val_main_v60 (F := F) e)

/-- The reference's first result is the aggregation of its second and third networks' results. -/
theorem v61_eq_aggregate (x0 : (⟨S50000x512, .f32⟩ : BufTy).Contents (Elt F)) (x1 : (⟨S100000x512, .f32⟩ : BufTy).Contents (Elt F))
    (x2 : (⟨S100000x2, .i32⟩ : BufTy).Contents (Elt F)) (x7 : (⟨S1536x1024, .f32⟩ : BufTy).Contents (Elt F)) (x8 : (⟨S1024, .f32⟩ : BufTy).Contents (Elt F))
    (x9 : (⟨S1024x512, .f32⟩ : BufTy).Contents (Elt F)) (x10 : (⟨S512, .f32⟩ : BufTy).Contents (Elt F)) (x11 : (⟨S1536x1024, .f32⟩ : BufTy).Contents (Elt F))
    (x12 : (⟨S1024, .f32⟩ : BufTy).Contents (Elt F)) (x13 : (⟨S1024x512, .f32⟩ : BufTy).Contents (Elt F)) (x14 : (⟨S512, .f32⟩ : BufTy).Contents (Elt F)) :
    val_main_v61 (F := F) x0 x1 x2 x7 x8 x9 x10 x11 x12 x13 x14
      = aggregate x2 (val_main_v31 (F := F) x0 x1 x2 x7 x8 x9 x10) (val_main_v41 (F := F) x0 x1 x2 x11 x12 x13 x14) := rfl

end Cert.ReferenceIdeal.RefTail

end
-- ==== Proof.KerTail.lean ====
/-
  The host operations after the call: the first result.

  After the call the host aggregates the second and third result arrays over the edges' endpoints and divides by the counts.
  These are the reference's own operations on the same edge list, so the result is the shared aggregation applied to the two
  arrays the call leaves; the aggregation is never opened. The endpoint columns were written before the call and no array of
  the call overwrites them.
-/
import proofs.«160993_j55645596287598_1_alg».proof.Proof.Gen.KernelIdeal.Frame
import proofs.«160993_j55645596287598_1_alg».proof.Proof.Gen.ReferenceIdeal.Read
import proofs.«160993_j55645596287598_1_alg».proof.Proof.RefTail
import Idealize.ShloMosaic.Lib.StableHlo.Run
import Idealize.ShloMosaic.Lib.Pipeline.FrameSuffix

noncomputable section

namespace Cert.KernelIdeal.Tail

open Idealize.ShloMosaic Idealize.ShloMosaic.TcCoe Idealize.SL.Sem Idealize.ShloMosaic.StableHlo
open Idealize.ShloMosaic.Pipeline (Dat)
open Cert.KernelIdeal Cert.KernelIdeal.Gen

variable (m : (ℓ : Loc nD τ sig) → Buf (Elt Ideal) ℓ)

/-- The column of first endpoints, as the host wrote it before the call. -/
theorem firstCol_eq (c : Dev nD) :
    V0 m c (Proc.devRef .tc main_v1) = Cert.ReferenceIdeal.Read.val_main_v1 (F := Ideal) (m ((c : Thread nD τ).loc main_arg2)) := by
  show StableHlo.after hostOps0 (fun b => m (c, b)) (Proc.devRef .tc main_v1) = _
  after_results
  rfl

/-- The column of second endpoints, as the host wrote it before the call. -/
theorem secondCol_eq (c : Dev nD) :
    V0 m c (Proc.devRef .tc main_v3) = Cert.ReferenceIdeal.Read.val_main_v3 (F := Ideal) (m ((c : Thread nD τ).loc main_arg2)) := by
  show StableHlo.after hostOps0 (fun b => m (c, b)) (Proc.devRef .tc main_v3) = _
  after_results
  rfl

/-- The first result is the shared aggregation of the call's second and third result arrays. -/
theorem tail_eq (c : Dev nD) :
    Pipeline.afterTail₀ cfgs (dats m) 0 (V0 m) [hostOps1] c main_v60
      = Cert.ReferenceIdeal.RefTail.aggregate (F := Ideal) (m ((c : Thread nD τ).loc main_arg2))
          ((dats m 0 c).arrAt 18 cfg0.N) ((dats m 0 c).arrAt 19 cfg0.N) := by
  have h18 : Pipeline.withArrays (cfgs 0).spec c (V0 m c) (fun w => (dats m 0 c).arrAt w (cfgs 0).N) (Proc.devRef .tc main_v40_1)
      = (dats m 0 c).arrAt 18 cfg0.N := Pipeline.withArrays_arr spec0 launch0.win.arr_inj c _ _ 18
  have h19 : Pipeline.withArrays (cfgs 0).spec c (V0 m c) (fun w => (dats m 0 c).arrAt w (cfgs 0).N) (Proc.devRef .tc main_v40_2)
      = (dats m 0 c).arrAt 19 cfg0.N := Pipeline.withArrays_arr spec0 launch0.win.arr_inj c _ _ 19
  have h1 : Pipeline.withArrays (cfgs 0).spec c (V0 m c) (fun w => (dats m 0 c).arrAt w (cfgs 0).N) (Proc.devRef .tc main_v1)
      = Cert.ReferenceIdeal.Read.val_main_v1 (F := Ideal) (m ((c : Thread nD τ).loc main_arg2)) :=
    (Pipeline.withArrays_of_ne _ c (V0 m c) _ main_v1 (by exact (by decide : ∀ w, Pipeline.arrRef spec0 w ≠ main_v1))).trans (firstCol_eq m c)
  have h3 : Pipeline.withArrays (cfgs 0).spec c (V0 m c) (fun w => (dats m 0 c).arrAt w (cfgs 0).N) (Proc.devRef .tc main_v3)
      = Cert.ReferenceIdeal.Read.val_main_v3 (F := Ideal) (m ((c : Thread nD τ).loc main_arg2)) :=
    (Pipeline.withArrays_of_ne _ c (V0 m c) _ main_v3 (by exact (by decide : ∀ w, Pipeline.arrRef spec0 w ≠ main_v3))).trans (secondCol_eq m c)
  unfold Pipeline.afterTail₀
  show StableHlo.after hostOps1 _ (Proc.devRef .tc main_v60) = _
  after_results_simp
  rw [h18, h19, h1, h3]
  rfl

end Cert.KernelIdeal.Tail

end
-- ==== Proof.RefValue.lean ====
/-
  The reference's three networks are the specification's concatenated network.

  The reference gathers the object rows, concatenates `[a | p | a]` along the feature axis, and applies, per weight set, a matrix
  product with the stacked weight, the bias, the positive part, a second product and a second bias. Read at an index this is
  the specification's `mlpCat` of the gathered rows; the gather itself stays opaque (both programs apply the same one).
  The three networks are one function of their own weights.
-/
import proofs.«160993_j55645596287598_1_alg».proof.Proof.Gen.ReferenceIdeal.Read
import proofs.«160993_j55645596287598_1_alg».proof.Proof.MlpSpec
import Idealize.ShloMosaic.Lib.ValueIdx
import Idealize.ShloMosaic.Lib.Pipeline.Value
import Idealize.ShloMosaic.PureOps.Ideal.Laws

noncomputable section

namespace Cert.ReferenceIdeal.RefValue

open Idealize.ShloMosaic Idealize.ShloMosaic.TcCoe Idealize.ShloMosaic.ValueIdx
open Cert.ReferenceIdeal Cert.ReferenceIdeal.Gen Cert.ReferenceIdeal.Read Cert.EdgeMlp

/-- The second network is the first's function of its own weights. -/
theorem v31_eq {F : FTy → Type} [FloatOps F] (x0 : (⟨S50000x512, .f32⟩ : BufTy).Contents (Elt F)) (x1 : (⟨S100000x512, .f32⟩ : BufTy).Contents (Elt F))
    (x2 : (⟨S100000x2, .i32⟩ : BufTy).Contents (Elt F)) (x7 : (⟨S1536x1024, .f32⟩ : BufTy).Contents (Elt F)) (x8 : (⟨S1024, .f32⟩ : BufTy).Contents (Elt F))
    (x9 : (⟨S1024x512, .f32⟩ : BufTy).Contents (Elt F)) (x10 : (⟨S512, .f32⟩ : BufTy).Contents (Elt F)) :
    val_main_v31 (F := F) x0 x1 x2 x7 x8 x9 x10 = val_main_v21 (F := F) x0 x1 x2 x7 x8 x9 x10 := rfl

/-- The third network is the first's function of its own weights. -/
theorem v41_eq {F : FTy → Type} [FloatOps F] (x0 : (⟨S50000x512, .f32⟩ : BufTy).Contents (Elt F)) (x1 : (⟨S100000x512, .f32⟩ : BufTy).Contents (Elt F))
    (x2 : (⟨S100000x2, .i32⟩ : BufTy).Contents (Elt F)) (x11 : (⟨S1536x1024, .f32⟩ : BufTy).Contents (Elt F)) (x12 : (⟨S1024, .f32⟩ : BufTy).Contents (Elt F))
    (x13 : (⟨S1024x512, .f32⟩ : BufTy).Contents (Elt F)) (x14 : (⟨S512, .f32⟩ : BufTy).Contents (Elt F)) :
    val_main_v41 (F := F) x0 x1 x2 x11 x12 x13 x14 = val_main_v21 (F := F) x0 x1 x2 x11 x12 x13 x14 := rfl

/-- The row `[a | p | a]` of an edge, read entry by entry, is the joined array of the three pieces. -/
theorem cat_apply (A P : (⟨S100000x512, .f32⟩ : BufTy).Contents (Elt Ideal)) (r : Fin 100000) (k : Fin 1536) :
    concatenate S100000x1536 1 [⟨S100000x512, A⟩, ⟨S100000x512, P⟩, ⟨S100000x512, A⟩]
      concatenates_S100000x512_S100000x512_S100000x512_S100000x1536_d1 (ix2 r k) = cat3 A P r k := by
  unfold cat3
  by_cases h1 : k.val < 512
  · rw [dif_pos h1]
    exact concatenate_apply_piece 1 _ _ (ix2 r k) 0 (by show (0 : Nat) < 3; omega) S100000x512 A rfl rfl 0 rfl (ix2 r ⟨k.val, h1⟩)
      (fun b hb => by
        match b with
        | ⟨0, _⟩ => rfl
        | ⟨1, _⟩ => exact absurd rfl hb)
      (by show 0 + k.val = k.val; omega)
  · rw [dif_neg h1]
    by_cases h2 : k.val < 1024
    · rw [dif_pos h2]
      exact concatenate_apply_piece 1 _ _ (ix2 r k) 1 (by show (1 : Nat) < 3; omega) S100000x512 P rfl rfl 512 rfl
        (ix2 r ⟨k.val - 512, by omega⟩)
        (fun b hb => by
          match b with
          | ⟨0, _⟩ => rfl
          | ⟨1, _⟩ => exact absurd rfl hb)
        (by show 512 + (k.val - 512) = k.val; omega)
    · rw [dif_neg h2]
      exact concatenate_apply_piece 1 _ _ (ix2 r k) 2 (by show (2 : Nat) < 3; omega) S100000x512 A rfl rfl 1024 rfl
        (ix2 r ⟨k.val - 1024, by omega⟩)
        (fun b hb => by
          match b with
          | ⟨0, _⟩ => rfl
          | ⟨1, _⟩ => exact absurd rfl hb)
        (by show 1024 + (k.val - 1024) = k.val; omega)

/-- The joined array of the reference, read at an index, is the row `[a | p | a]` of the gathered rows. -/
theorem v11_apply (x0 : (⟨S50000x512, .f32⟩ : BufTy).Contents (Elt Ideal)) (x1 : (⟨S100000x512, .f32⟩ : BufTy).Contents (Elt Ideal))
    (x2 : (⟨S100000x2, .i32⟩ : BufTy).Contents (Elt Ideal)) (r : Fin 100000) (k : Fin 1536) :
    val_main_v11 (F := Ideal) x0 x1 x2 (ix2 r k) = cat3 (val_main_v10 (F := Ideal) x0 x2) x1 r k := by
  unfold val_main_v11
  exact cat_apply (val_main_v10 (F := Ideal) x0 x2) x1 r k

/-- The reference's network, index by index, is the concatenated network of the gathered rows. -/
theorem v21_eq_mlpCat (x0 : (⟨S50000x512, .f32⟩ : BufTy).Contents (Elt Ideal)) (x1 : (⟨S100000x512, .f32⟩ : BufTy).Contents (Elt Ideal))
    (x2 : (⟨S100000x2, .i32⟩ : BufTy).Contents (Elt Ideal)) (x3 : (⟨S1536x1024, .f32⟩ : BufTy).Contents (Elt Ideal)) (x4 : (⟨S1024, .f32⟩ : BufTy).Contents (Elt Ideal))
    (x5 : (⟨S1024x512, .f32⟩ : BufTy).Contents (Elt Ideal)) (x6 : (⟨S512, .f32⟩ : BufTy).Contents (Elt Ideal)) :
    val_main_v21 (F := Ideal) x0 x1 x2 x3 x4 x5 x6 = mlpCat (val_main_v10 (F := Ideal) x0 x2) x1 x3 x4 x5 x6 := by
  funext i
  obtain ⟨r, j, rfl⟩ : ∃ (r : Fin 100000) (j : Fin 512), i = ix2 r j := ⟨i 0, i 1, eq_ix2 i⟩
  unfold mlpCat
  rw [outOf_apply]
  rw [val_main_v21_apply, val_main_v18_apply, val_main_v20_apply, val_main_v19_apply]
  -- the second layer's indices, by coordinates
  have e1 : ∀ h : Fin 1024, lidx_main_v18 (ix2 r j) h = ix2 r h := fun h =>
    funext fun a => Fin.ext (by match a with | ⟨0, _⟩ => rfl | ⟨1, _⟩ => rfl)
  have e2 : ∀ h : Fin 1024, ridx_main_v18 (ix2 r j) h = ix2 h j := fun h =>
    funext fun a => Fin.ext (by match a with | ⟨0, _⟩ => rfl | ⟨1, _⟩ => rfl)
  have e3 : idx_main_v19 (idx_main_v20 (ix2 r j)) = ix1 j :=
    funext fun a => Fin.ext (by match a with | ⟨0, _⟩ => rfl)
  rw [e3, Ideal.addf_def]
  congr 1
  refine Finset.sum_congr rfl fun h _ => ?_
  rw [e1, e2, val_main_v17_apply, val_main_v15_apply, val_main_v16_apply, val_main_cst_apply, val_main_v12_apply,
    val_main_v14_apply, val_main_v13_apply]
  -- the first layer's indices, by coordinates
  have f1 : ∀ k : Fin 1536, lidx_main_v12 (ix2 r h) k = ix2 r k := fun k =>
    funext fun a => Fin.ext (by match a with | ⟨0, _⟩ => rfl | ⟨1, _⟩ => rfl)
  have f2 : ∀ k : Fin 1536, ridx_main_v12 (ix2 r h) k = ix2 k h := fun k =>
    funext fun a => Fin.ext (by match a with | ⟨0, _⟩ => rfl | ⟨1, _⟩ => rfl)
  have f3 : idx_main_v13 (idx_main_v14 (ix2 r h)) = ix1 h :=
    funext fun a => Fin.ext (by match a with | ⟨0, _⟩ => rfl)
  rw [f3, Ideal.maximumf_def, Ideal.addf_def, Ideal.ofBits_def]
  unfold hidCat
  congr 3
  refine Finset.sum_congr rfl fun k _ => ?_
  rw [f1, f2, v11_apply]

end Cert.ReferenceIdeal.RefValue

end
-- ==== Proof.Finite.lean ====
/-
  From the precondition to real numbers.

  The precondition says, of each float argument, that every entry's absolute value is below `+∞` (the word `0x7F800000`), all
  conjoined. On the extended reals `|x| < +∞` excludes both infinities, so the entry is a real number. Only the arguments that
  meet the distributive law are read here: the object vectors, the predicate vectors and the three first-layer weights.
-/
import proofs.«160993_j55645596287598_1_alg».proof.Pre_finite_inputs
import Idealize.ShloMosaic.PureOps.Ideal
import Idealize.ShloMosaic.Lib.ReduceAll
import Idealize.ShloMosaic.Lib.ValueIdx

noncomputable section

namespace Cert.Pre_finite_inputs.Finite

open Idealize.ShloMosaic Idealize.ShloMosaic.ValueIdx Cert.Pre_finite_inputs

variable [Cert.Pre_finite_inputs.Facts]

/-- The result shape of a full reduction has a single index. -/
instance : Subsingleton S_.Idx := ⟨fun a b => funext fun d => d.elim0⟩

/-- An extended real whose absolute value is strictly below some bound is a real number: both infinities have absolute value `⊤`,
    which is below nothing. -/
theorem real_of_abs_lt (a b : EReal) (h : Ideal.cmp .olt (max a (-a)) b = 1#1) : ∃ r : ℝ, a = (r : EReal) := by
  have hlt : max a (-a) < b := by
    by_contra hn
    simp [Ideal.cmp, hn] at h
  induction a using EReal.rec with
  | bot => simp at hlt
  | coe r => exact ⟨r, rfl⟩
  | top => simp at hlt

/-- One conjunct of the precondition, over an arbitrary shape: if the conjunction over all entries of `|x| < c` is true, then every
    entry of `x` is a real number. -/
theorem real_of_all {s : Shape} {axes : List (Fin s.rank)} (x : FVec Ideal s .f32) (hb : S_.BroadcastsInDim s (![] : Fin 0 → Fin s.rank))
    (hr : s.ReducesTo axes S_) (hu : 0 < S_.numel) (w : BitVec 32)
    (e : Host.reduce IntOp.andi (cmpf .olt (Host.absf x) (broadcastInDim s ![] hb (constant (F := Ideal) S_ .f32 w)))
      (constantI S_ 1 1#1) hr hu ix0 = 1#1) (i : s.Idx) : ∃ r : ℝ, x i = (r : EReal) :=
  real_of_abs_lt (x i) _ (Host.reduce_andi_all _ _ hr hu ix0 e i)

/-- Under the precondition every entry of the object vectors, the predicate vectors and the three first-layer weights is a real number. -/
theorem real_of_pre (x0 : FVec Ideal S50000x512 .f32) (x1 : FVec Ideal S100000x512 .f32) (x2 : IVec S100000x2 32)
    (x3 : FVec Ideal S1536x1024 .f32) (x4 : FVec Ideal S1024 .f32) (x5 : FVec Ideal S1024x512 .f32) (x6 : FVec Ideal S512 .f32)
    (x7 : FVec Ideal S1536x1024 .f32) (x8 : FVec Ideal S1024 .f32) (x9 : FVec Ideal S1024x512 .f32) (x10 : FVec Ideal S512 .f32)
    (x11 : FVec Ideal S1536x1024 .f32) (x12 : FVec Ideal S1024 .f32) (x13 : FVec Ideal S1024x512 .f32) (x14 : FVec Ideal S512 .f32)
    (h : Cert.Pre_finite_inputs.fn (F := Ideal) x0 x1 x2 x3 x4 x5 x6 x7 x8 x9 x10 x11 x12 x13 x14 = (fun _ => 1#1)) :
    (∀ i, ∃ r : ℝ, x0 i = (r : EReal)) ∧ (∀ i, ∃ r : ℝ, x1 i = (r : EReal)) ∧ (∀ i, ∃ r : ℝ, x3 i = (r : EReal))
      ∧ (∀ i, ∃ r : ℝ, x7 i = (r : EReal)) ∧ (∀ i, ∃ r : ℝ, x11 i = (r : EReal)) := by
  have h0 := congrFun h ix0
  unfold fn fn_part1 fn_part2 fn_part3 fn_part4 at h0
  dsimp only at h0
  -- the conjunction is nested to the left: peel the conjuncts from the last argument back to the first
  obtain ⟨h0, -⟩ := IntOp.andi_eq_one.1 h0
  obtain ⟨h0, -⟩ := IntOp.andi_eq_one.1 h0
  obtain ⟨h0, -⟩ := IntOp.andi_eq_one.1 h0
  obtain ⟨h0, e11⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, e7⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, e3⟩ := IntOp.andi_eq_one.1 h0
  obtain ⟨e0, e1⟩ := IntOp.andi_eq_one.1 h0
  exact ⟨real_of_all x0 _ _ _ _ e0, real_of_all x1 _ _ _ _ e1, real_of_all x3 _ _ _ _ e3, real_of_all x7 _ _ _ _ e7,
    real_of_all x11 _ _ _ _ e11⟩

end Cert.Pre_finite_inputs.Finite

end
-- ==== Proof.Claims.lean ====
/-
  The claims.

  The idealized kernel's run leaves, in its second result buffer, the first network of the gathered rows in split form, and in
  its first result buffer the shared aggregation of the second and third networks. Under the precondition every entry of the
  object vectors, predicate vectors and first-layer weights is a real number, so each split network is the concatenated one,
  which is what the reference computes; the aggregation is the reference's own. The frames are the generated ones; the
  reference's frame is its generated run with the results dropped.
-/
import proofs.«160993_j55645596287598_1_alg».proof.Defs
import proofs.«160993_j55645596287598_1_alg».proof.Proof.Gen.Kernel.Frame
import proofs.«160993_j55645596287598_1_alg».proof.Proof.Gen.KernelIdeal.Frame
import proofs.«160993_j55645596287598_1_alg».proof.Proof.Gen.ReferenceIdeal.Read
import proofs.«160993_j55645596287598_1_alg».proof.Proof.Gen.Pre_finite_inputs
import proofs.«160993_j55645596287598_1_alg».proof.Proof.MlpSpec
import proofs.«160993_j55645596287598_1_alg».proof.Proof.KerArrays
import proofs.«160993_j55645596287598_1_alg».proof.Proof.KerTail
import proofs.«160993_j55645596287598_1_alg».proof.Proof.RefValue
import proofs.«160993_j55645596287598_1_alg».proof.Proof.RefTail
import proofs.«160993_j55645596287598_1_alg».proof.Proof.Finite

noncomputable section

open Idealize.ShloMosaic Idealize.ShloMosaic.TcCoe Idealize.SL.Sem

namespace Cert.KernelIdeal.Run

open Cert.KernelIdeal Cert.KernelIdeal.Gen Cert.KernelIdeal.Head Cert.KernelIdeal.Arrays Cert.EdgeMlp

variable (m : (ℓ : Loc nD τ sig) → Buf (Elt Ideal) ℓ) (ρ : Dev nD → PrngReg)

/-- The idealized kernel's run with both results named: the aggregation of the second and third networks, the first network,
    and the arguments unchanged. -/
theorem run : θ_run defs (onTc (τ := τ) (main (F := Ideal))) ⟨m, fun _ => 0, ρ⟩ fun r => ∀ c : Dev nD,
      r.2.mem ((c.tc : Thread nD τ).loc main_v60)
        = Cert.ReferenceIdeal.RefTail.aggregate (F := Ideal) (m ((c : Thread nD τ).loc main_arg2)) (specB m c) (specC m c)
      ∧ r.2.mem ((c.tc : Thread nD τ).loc main_v40_0) = specA m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun r h c =>
    ⟨(((h c).2 main_v60 (Pipeline.mem_restRefs_of main_v60 (by decide) (by decide))).trans (Cert.KernelIdeal.Tail.tail_eq m c)).trans
        (by rw [finalB, finalC]),
      ((h c).1 17).trans (finalA m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c),
      ((h c).2 main_arg13 (Pipeline.mem_restRefs_of main_arg13 (by decide) (by decide))).trans (W_main_arg13 m (dats m) c),
      ((h c).2 main_arg14 (Pipeline.mem_restRefs_of main_arg14 (by decide) (by decide))).trans (W_main_arg14 m (dats m) c)⟩)
    (run_main m ρ)

/-- The gathered rows are entries of the object vectors: real when those are. -/
theorem rows_real (c : Dev nD) (h0 : ∀ i, ∃ r : ℝ, (m ((c : Thread nD τ).loc main_arg0) : Mat 50000 512) i = (r : EReal)) :
    ∀ i, IsReal (rows m c i) := fun i => h0 _

/-- On real entries the first network in split form is the reference's first network of the same arguments. -/
theorem specA_eq (c : Dev nD) (hA : ∀ i, IsReal (rows m c i)) (hP : ∀ i, IsReal (pred m c i)) (hW : ∀ i, IsReal (w1a m c i)) :
    specA m c = Cert.ReferenceIdeal.Read.val_main_v21 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (mlpSplit_eq_mlpCat _ _ _ _ _ _ hA hP hW).trans
    (Cert.ReferenceIdeal.RefValue.v21_eq_mlpCat (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))).symm

/-- On real entries the second network in split form is the reference's second network. -/
theorem specB_eq (c : Dev nD) (hA : ∀ i, IsReal (rows m c i)) (hP : ∀ i, IsReal (pred m c i)) (hW : ∀ i, IsReal (w1b m c i)) :
    specB m c = Cert.ReferenceIdeal.Read.val_main_v31 (F := Ideal) (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) :=
  ((mlpSplit_eq_mlpCat _ _ _ _ _ _ hA hP hW).trans
    (Cert.ReferenceIdeal.RefValue.v21_eq_mlpCat (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10))).symm).trans
    (Cert.ReferenceIdeal.RefValue.v31_eq (F := Ideal) (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10))).symm

/-- On real entries the third network in split form is the reference's third network. -/
theorem specC_eq (c : Dev nD) (hA : ∀ i, IsReal (rows m c i)) (hP : ∀ i, IsReal (pred m c i)) (hW : ∀ i, IsReal (w1c m c i)) :
    specC m c = Cert.ReferenceIdeal.Read.val_main_v41 (F := Ideal) (m ((c : Thread nD τ).loc main_arg0)) (m ((c : Thread nD τ).loc main_arg1)) (m ((c : Thread nD τ).loc main_arg2)) (m ((c : Thread nD τ).loc main_arg11)) (m ((c : Thread nD τ).loc main_arg12)) (m ((c : Thread nD τ).loc main_arg13)) (m ((c : Thread nD τ).loc main_arg14)) :=
  ((mlpSplit_eq_mlpCat _ _ _ _ _ _ hA hP hW).trans
    (Cert.ReferenceIdeal.RefValue.v21_eq_mlpCat (m ((c : Thread nD τ).loc main_arg0)) (m ((c : Thread nD τ).loc main_arg1)) (m ((c : Thread nD τ).loc main_arg2)) (m ((c : Thread nD τ).loc main_arg11)) (m ((c : Thread nD τ).loc main_arg12)) (m ((c : Thread nD τ).loc main_arg13)) (m ((c : Thread nD τ).loc main_arg14))).symm).trans
    (Cert.ReferenceIdeal.RefValue.v41_eq (F := Ideal) (m ((c : Thread nD τ).loc main_arg0)) (m ((c : Thread nD τ).loc main_arg1)) (m ((c : Thread nD τ).loc main_arg2)) (m ((c : Thread nD τ).loc main_arg11)) (m ((c : Thread nD τ).loc main_arg12)) (m ((c : Thread nD τ).loc main_arg13)) (m ((c : Thread nD τ).loc main_arg14))).symm

end Cert.KernelIdeal.Run

namespace Cert.Proof.Claims

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

open Cert.KernelIdeal Cert.KernelIdeal.Gen Cert.KernelIdeal.Head Cert.KernelIdeal.Arrays Cert.KernelIdeal.Run Cert.EdgeMlp in
/-- Both idealized programs end with the reference's stage functions of the kernel's arguments: the kernel by its run and the
    law on real entries, the reference by its generated run rewritten along the arguments' agreement. -/
theorem algebraic : Cert.algebraic_KernelIdeal_ReferenceIdeal := by
  intro m ρ m' ρ' hpre hagree
  refine ⟨fun c => Cert.ReferenceIdeal.Read.val_main_v61 (F := Ideal) (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)),
    fun c => Cert.ReferenceIdeal.Read.val_main_v21 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)), ?_, ?_⟩
  · refine (θ_run Cert.KernelIdeal.defs _ _).mono (fun r h c => ?_) (Cert.KernelIdeal.Run.run m ρ)
    obtain ⟨h0, h1, h3, h7, h11⟩ := Cert.Pre_finite_inputs.Finite.real_of_pre _ _ _ _ _ _ _ _ _ _ _ _ _ _ _ (hpre c)
    have hA : ∀ i, IsReal (rows m c i) := rows_real m c h0
    refine ⟨(h c).1.trans ?_, (h c).2.1.trans ?_, (h c).2.2⟩
    · rw [specB_eq m c hA h1 h7, specC_eq m c hA h1 h11]
      exact (Cert.ReferenceIdeal.RefTail.v61_eq_aggregate (F := Ideal) _ _ _ _ _ _ _ _ _ _ _).symm
    · exact specA_eq m c hA h1 h3
  · refine (θ_run Cert.ReferenceIdeal.defs _ _).mono (fun r h c => ?_) (Cert.ReferenceIdeal.Value.run (F := Ideal) m' ρ')
    obtain ⟨a0, a1, a2, a3, a4, a5, a6, a7, a8, a9, a10, a11, a12, a13, a14⟩ := hagree c
    refine ⟨(h c).1.trans ?_, (h c).2.1.trans ?_, (h c).2.2⟩
    · rw [Cert.ReferenceIdeal.Read.val_main_v61_eq, a0, a1, a2, a7, a8, a9, a10, a11, a12, a13, a14]
    · rw [Cert.ReferenceIdeal.Read.val_main_v21_eq, a0, a1, a2, a3, a4, a5, a6]

end Cert.Proof.Claims

end
-- ==== Proof.lean ====
/- The proof of `Cert.Claim`: frame_Kernel ∧ frame_KernelIdeal ∧ frame_ReferenceIdeal ∧ preserves_Kernel_KernelIdeal ∧
   algebraic_KernelIdeal_ReferenceIdeal.

   The kernel computes, for every edge, three two-layer networks (one per weight set) of the row `[a | p | a]` — `a` the object
   vector at the edge's second endpoint, `p` the edge's predicate vector — and then averages the second and third networks'
   results over each object's incident edges. It never forms the concatenated row: since `a` meets the first and the third
   512-row block of the stacked first-layer weight, it adds those two blocks beforehand and multiplies once,
   `a · (W_lo + W_hi) + p · W_mid`, where the reference multiplies the concatenated row by the stacked weight. The two agree by
   distributivity, which on the extended reals needs every entry to be a real number: that is what the precondition gives
   (Proof/Finite.lean), and the law is Proof/MlpSpec.lean. The kernel's result arrays are read off its generated frame block
   by block (Proof/KerPayload.lean, Proof/KerHead.lean, Proof/KerArrays.lean), the host operations after the call are the
   reference's own aggregation (Proof/KerTail.lean, Proof/RefTail.lean), the reference's networks are read index by index from
   its generated run (Proof/RefValue.lean), and Proof/Claims.lean joins the two sides. The frames are the generated ones, and
   the idealization rewrote nothing, so `preserves` is trivial. -/
import proofs.«160993_j55645596287598_1_alg».proof.Defs
import proofs.«160993_j55645596287598_1_alg».proof.Proof.Gen.Kernel
import proofs.«160993_j55645596287598_1_alg».proof.Proof.Gen.Kernel.Skeleton
import proofs.«160993_j55645596287598_1_alg».proof.Proof.Gen.Kernel.Launch
import proofs.«160993_j55645596287598_1_alg».proof.Proof.Gen.Kernel.Points
import proofs.«160993_j55645596287598_1_alg».proof.Proof.Gen.Kernel.Frame
import proofs.«160993_j55645596287598_1_alg».proof.Proof.Gen.KernelIdeal
import proofs.«160993_j55645596287598_1_alg».proof.Proof.Gen.KernelIdeal.Skeleton
import proofs.«160993_j55645596287598_1_alg».proof.Proof.Gen.KernelIdeal.Launch
import proofs.«160993_j55645596287598_1_alg».proof.Proof.Gen.KernelIdeal.Points
import proofs.«160993_j55645596287598_1_alg».proof.Proof.Gen.KernelIdeal.Frame
import proofs.«160993_j55645596287598_1_alg».proof.Proof.Gen.ReferenceIdeal
import proofs.«160993_j55645596287598_1_alg».proof.Proof.Gen.Pre_finite_inputs
import proofs.«160993_j55645596287598_1_alg».proof.Proof.Gen.ReferenceIdeal.Read
import proofs.«160993_j55645596287598_1_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
